-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x8192x64 : Shape := ⟨4, ![4, 12, 8192, 64]⟩
abbrev S4x8192 : Shape := ⟨2, ![4, 8192]⟩
abbrev S_ : Shape := ⟨0, ![]⟩

class Facts : Prop where
  bcast_S_S4x12x8192x64 : S_.BroadcastsInDim S4x12x8192x64 (![] : Fin 0 → Fin S4x12x8192x64.rank)
  reducesTo_S4x12x8192x64_S_d0_1_2_3 : S4x12x8192x64.ReducesTo [0, 1, 2, 3] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn_part1 {F : FTy → Type} [FloatOps F] (main_v13 : IVec S_ 1) (main_v16 : IVec S4x8192 1) : IVec S_ 1 :=
  let main_c_5 : IVec S_ 1 := constantI S_ 1 1#1
  let main_v17 : IVec S_ 1 := (fun x v => Host.reduce IntOp.andi x v reducesTo_S4x8192_S_d0_1 h_S_) main_v16 main_c_5
  let main_v18 : IVec S_ 1 := andi main_v13 main_v17
  main_v18

def fn {F : FTy → Type} [FloatOps F] (main_arg0 : FVec F S4x12x8192x64 .f32) (main_arg1 : FVec F S4x12x8192x64 .f32) (main_arg2 : FVec F S4x12x8192x64 .f32) (main_arg3 : FVec F S4x8192 .f32) : IVec S_ 1 :=
  let main_v0 : FVec F S4x12x8192x64 .f32 := Host.absf main_arg0
  let main_cst : FVec F S_ .f32 := constant S_ .f32 0x7F800000#32
  let main_v1 : FVec F S4x12x8192x64 .f32 := broadcastInDim S4x12x8192x64 ![] bcast_S_S4x12x8192x64 main_cst
  let main_v2 : IVec S4x12x8192x64 1 := cmpf .olt main_v0 main_v1
  let main_c : IVec S_ 1 := constantI S_ 1 1#1
  let main_v3 : IVec S_ 1 := (fun x v => Host.reduce IntOp.andi x v reducesTo_S4x12x8192x64_S_d0_1_2_3 h_S_) main_v2 main_c
  let main_v4 : FVec F S4x12x8192x64 .f32 := Host.absf main_arg1
  let main_cst_0 : FVec F S_ .f32 := constant S_ .f32 0x7F800000#32
  let main_v5 : FVec F S4x12x8192x64 .f32 := broadcastInDim S4x12x8192x64 ![] bcast_S_S4x12x8192x64 main_cst_0
  let main_v6 : IVec S4x12x8192x64 1 := cmpf .olt main_v4 main_v5
  let main_c_1 : IVec S_ 1 := constantI S_ 1 1#1
  let main_v7 : IVec S_ 1 := (fun x v => Host.reduce IntOp.andi x v reducesTo_S4x12x8192x64_S_d0_1_2_3 h_S_) main_v6 main_c_1
  let main_v8 : IVec S_ 1 := andi main_v3 main_v7
  let main_v9 : FVec F S4x12x8192x64 .f32 := Host.absf main_arg2
  let main_cst_2 : FVec F S_ .f32 := constant S_ .f32 0x7F800000#32
  let main_v10 : FVec F S4x12x8192x64 .f32 := broadcastInDim S4x12x8192x64 ![] bcast_S_S4x12x8192x64 main_cst_2
  let main_v11 : IVec S4x12x8192x64 1 := cmpf .olt main_v9 main_v10
  let main_c_3 : IVec S_ 1 := constantI S_ 1 1#1
  let main_v12 : IVec S_ 1 := (fun x v => Host.reduce IntOp.andi x v reducesTo_S4x12x8192x64_S_d0_1_2_3 h_S_) main_v11 main_c_3
  let main_v13 : IVec S_ 1 := andi main_v8 main_v12
  let main_v14 : FVec F S4x8192 .f32 := Host.absf main_arg3
  let main_cst_4 : FVec F S_ .f32 := constant S_ .f32 0x7F800000#32
  let main_v15 : FVec F S4x8192 .f32 := broadcastInDim S4x8192 ![] bcast_S_S4x8192 main_cst_4
  let main_v16 : IVec S4x8192 1 := cmpf .olt main_v14 main_v15
  fn_part1 (F := F) main_v13 main_v16
-- ==== Kernel.lean ====
abbrev S4x12x8192x64 : Shape := ⟨4, ![4, 12, 8192, 64]⟩
abbrev S4x8192 : Shape := ⟨2, ![4, 8192]⟩
abbrev S4x8192x1 : Shape := ⟨3, ![4, 8192, 1]⟩
abbrev S4x12x64x64 : Shape := ⟨4, ![4, 12, 64, 64]⟩
abbrev S1x4096x1 : Shape := ⟨3, ![1, 4096, 1]⟩
abbrev S1x1x4096x64 : Shape := ⟨4, ![1, 1, 4096, 64]⟩
abbrev S1x1x64x64 : Shape := ⟨4, ![1, 1, 64, 64]⟩
abbrev S64x64 : Shape := ⟨2, ![64, 64]⟩
abbrev S4096x64 : Shape := ⟨2, ![4096, 64]⟩
abbrev S4096x1 : Shape := ⟨2, ![4096, 1]⟩
abbrev S4096 : Shape := ⟨1, ![4096]⟩
abbrev S1x1x8192x64 : Shape := ⟨4, ![1, 1, 8192, 64]⟩
abbrev S8192x64 : Shape := ⟨2, ![8192, 64]⟩
abbrev S8192 : Shape := ⟨1, ![8192]⟩
abbrev S8192x1 : Shape := ⟨2, ![8192, 1]⟩

abbrev nBuf : Space → Nat
  | .hbm => 7
  | .vmem => 15
  | .smem => 0
  | _ => 0

abbrev bufTy : (tb : Table) → Fin (tcTables nBuf tb) → BufTy
  | .hbm, ⟨0, _⟩ => ⟨S4x12x8192x64, .f32⟩
  | .hbm, ⟨1, _⟩ => ⟨S4x12x8192x64, .f32⟩
  | .hbm, ⟨2, _⟩ => ⟨S4x12x8192x64, .f32⟩
  | .hbm, ⟨3, _⟩ => ⟨S4x8192, .f32⟩
  | .hbm, ⟨4, _⟩ => ⟨S4x8192x1, .f32⟩
  | .hbm, ⟨5, _⟩ => ⟨S4x12x64x64, .f32⟩
  | .hbm, ⟨6, _⟩ => ⟨S4x12x8192x64, .f32⟩
  | .local _ .vmem, ⟨0, _⟩ => ⟨S1x4096x1, .f32⟩
  | .local _ .vmem, ⟨1, _⟩ => ⟨S1x4096x1, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x1x4096x64, .f32⟩
  | .local _ .vmem, ⟨5, _⟩ => ⟨S1x1x4096x64, .f32⟩
  | .local _ .vmem, ⟨6, _⟩ => ⟨S1x1x64x64, .f32⟩
  | .local _ .vmem, ⟨7, _⟩ => ⟨S1x1x64x64, .f32⟩
  | .local _ .vmem, ⟨8, _⟩ => ⟨S64x64, .f32⟩
  | .local _ .vmem, ⟨9, _⟩ => ⟨S1x1x8192x64, .f32⟩
  | .local _ .vmem, ⟨10, _⟩ => ⟨S1x1x8192x64, .f32⟩
  | .local _ .vmem, ⟨11, _⟩ => ⟨S1x1x64x64, .f32⟩
  | .local _ .vmem, ⟨12, _⟩ => ⟨S1x1x64x64, .f32⟩
  | .local _ .vmem, ⟨13, _⟩ => ⟨S1x1x8192x64, .f32⟩
  | .local _ .vmem, ⟨14, _⟩ => ⟨S1x1x8192x64, .f32⟩
  | _, _ => ⟨S4x12x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![4, 12, 2], ![false, false, false]⟩

def k0_cond2 (i : grid0.Coords) : BitVec 1 :=
  let arg2 : BitVec 32 := BitVec.ofNat 32 (i 2).val
  let c1_i32 : BitVec 32 := 1#32
  let v31 : BitVec 1 := Scalar.cmpi .eq arg2 c1_i32
  let v32 : BitVec 32 := Scalar.extui v31
  let c0_i32_18 : BitVec 32 := 0#32
  let v33 : BitVec 1 := Scalar.cmpi .ne v32 c0_i32_18
  v33

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![4, 12], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S4x8192_S4x8192x1_0_1 : S4x8192.BroadcastsInDim S4x8192x1 (![0, 1] : Fin 2 → Fin S4x8192x1.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  reduces_S4096x64_S4096 : S4096x64.Reduces [1] S4096
  shapeCasts_S4096_S4096x1 : S4096.ShapeCasts S4096x1
  broadcasts_S4096x1_S4096x64 : S4096x1.Broadcasts S4096x64
  bitsLt_bf16_f32 : FTy.bits .bf16 < FTy.bits .f32
  inb_S1x1x64x64_S1x1x64x64_0_0_0_0 : ∀ a, (![0, 0, 0, 0] : Fin 4 → Nat) a + S1x1x64x64.size a ≤ S1x1x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  inb_S1x1x8192x64_S1x1x8192x64_0_0_0_0 : ∀ a, (![0, 0, 0, 0] : Fin 4 → Nat) a + S1x1x8192x64.size a ≤ S1x1x8192x64.size a
  h_S1x1x8192x64 : 0 < S1x1x8192x64.numel
  shapeCasts_S1x1x8192x64_S8192x64 : S1x1x8192x64.ShapeCasts S8192x64
  reduces_S8192x64_S8192 : S8192x64.Reduces [1] S8192
  shapeCasts_S8192_S8192x1 : S8192.ShapeCasts S8192x1
  broadcasts_S8192x1_S8192x64 : S8192x1.Broadcasts S8192x64
  shapeCasts_S8192x64_S1x1x8192x64 : S8192x64.ShapeCasts S1x1x8192x64
  dot_S4096x64_S4096x64_S64x64_0_0_1_1_n_n_wf : DotDims.WF S4096x64 S4096x64 S64x64 [0] [0] [1] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x1.size a ≤ S4x8192x1.size a
  hwx0_0 : ∀ i : grid0.Coords, EltTy.bits .f32 = 32 ∨ (Rect.block (s := S4x8192x1) S1x4096x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S4x12x8192x64.size a
  hwx0_1 : ∀ i : grid0.Coords, EltTy.bits .f32 = 32 ∨ (Rect.block (s := S4x12x8192x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S4x12x8192x64.size a
  hwx0_2 : ∀ i : grid0.Coords, EltTy.bits .f32 = 32 ∨ (Rect.block (s := S4x12x8192x64) S1x1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64x64.size a ≤ S4x12x64x64.size a
  hwx0_3 : ∀ i : grid0.Coords, EltTy.bits .f32 = 32 ∨ (Rect.block (s := S4x12x64x64) S1x1x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x8192x64.size a ≤ S4x12x8192x64.size a
  hwx1_0 : ∀ i : grid1.Coords, EltTy.bits .f32 = 32 ∨ (Rect.block (s := S4x12x8192x64) S1x1x8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64x64.size a ≤ S4x12x64x64.size a
  hwx1_1 : ∀ i : grid1.Coords, EltTy.bits .f32 = 32 ∨ (Rect.block (s := S4x12x64x64) S1x1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x8192x64.size a ≤ S4x12x8192x64.size a
  hwx1_2 : ∀ i : grid1.Coords, EltTy.bits .f32 = 32 ∨ (Rect.block (s := S4x12x8192x64) S1x1x8192x64.size (cc1_transform_2 i) (hinb1_2 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v0) S1x4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x1x8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x12x8192x64 : Shape := ⟨4, ![4, 12, 8192, 64]⟩
abbrev S4x8192 : Shape := ⟨2, ![4, 8192]⟩
abbrev S4x1x8192x1 : Shape := ⟨4, ![4, 1, 8192, 1]⟩
abbrev S_ : Shape := ⟨0, ![]⟩
abbrev S4x12x8192 : Shape := ⟨3, ![4, 12, 8192]⟩
abbrev S4x12x8192x1 : Shape := ⟨4, ![4, 12, 8192, 1]⟩
abbrev S4x12x64x64 : Shape := ⟨4, ![4, 12, 64, 64]⟩

abbrev nBuf : Space → Nat
  | .hbm => 37
  | .vmem => 0
  | .smem => 0
  | _ => 0

abbrev bufTy : (tb : Table) → Fin (tcTables nBuf tb) → BufTy
  | .hbm, ⟨0, _⟩ => ⟨S4x12x8192x64, .f32⟩
  | .hbm, ⟨1, _⟩ => ⟨S4x12x8192x64, .f32⟩
  | .hbm, ⟨2, _⟩ => ⟨S4x12x8192x64, .f32⟩
  | .hbm, ⟨3, _⟩ => ⟨S4x8192, .f32⟩
  | .hbm, ⟨4, _⟩ => ⟨S4x1x8192x1, .f32⟩
  | .hbm, ⟨5, _⟩ => ⟨S4x12x8192x64, .f32⟩
  | .hbm, ⟨6, _⟩ => ⟨S_, .f32⟩
  | .hbm, ⟨7, _⟩ => ⟨S4x12x8192, .f32⟩
  | .hbm, ⟨8, _⟩ => ⟨S4x12x8192x1, .f32⟩
  | .hbm, ⟨9, _⟩ => ⟨S4x12x8192x1, .f32⟩
  | .hbm, ⟨10, _⟩ => ⟨S_, .f32⟩
  | .hbm, ⟨11, _⟩ => ⟨S4x12x8192x1, .f32⟩
  | .hbm, ⟨12, _⟩ => ⟨S4x12x8192x1, .f32⟩
  | .hbm, ⟨13, _⟩ => ⟨S4x12x8192x64, .f32⟩
  | .hbm, ⟨14, _⟩ => ⟨S4x12x8192x64, .f32⟩
  | .hbm, ⟨15, _⟩ => ⟨S_, .f32⟩
  | .hbm, ⟨16, _⟩ => ⟨S4x12x8192x64, .f32⟩
  | .hbm, ⟨17, _⟩ => ⟨S4x12x8192x64, .f32⟩
  | .hbm, ⟨18, _⟩ => ⟨S4x12x8192x64, .f32⟩
  | .hbm, ⟨19, _⟩ => ⟨S_, .f32⟩
  | .hbm, ⟨20, _⟩ => ⟨S4x12x8192, .f32⟩
  | .hbm, ⟨21, _⟩ => ⟨S4x12x8192x1, .f32⟩
  | .hbm, ⟨22, _⟩ => ⟨S4x12x8192x1, .f32⟩
  | .hbm, ⟨23, _⟩ => ⟨S_, .f32⟩
  | .hbm, ⟨24, _⟩ => ⟨S4x12x8192x1, .f32⟩
  | .hbm, ⟨25, _⟩ => ⟨S4x12x8192x1, .f32⟩
  | .hbm, ⟨26, _⟩ => ⟨S4x12x8192x64, .f32⟩
  | .hbm, ⟨27, _⟩ => ⟨S4x12x8192x64, .f32⟩
  | .hbm, ⟨28, _⟩ => ⟨S4x12x8192x64, .f32⟩
  | .hbm, ⟨29, _⟩ => ⟨S4x12x8192x64, .f32⟩
  | .hbm, ⟨30, _⟩ => ⟨S_, .f32⟩
  | .hbm, ⟨31, _⟩ => ⟨S4x12x8192x64, .f32⟩
  | .hbm, ⟨32, _⟩ => ⟨S4x12x8192x64, .f32⟩
  | .hbm, ⟨33, _⟩ => ⟨S4x12x8192x64, .f32⟩
  | .hbm, ⟨34, _⟩ => ⟨S4x12x8192x64, .f32⟩
  | .hbm, ⟨35, _⟩ => ⟨S4x12x64x64, .f32⟩
  | .hbm, ⟨36, _⟩ => ⟨S4x12x8192x64, .f32⟩
  | _, _ => ⟨S4x12x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  bcast_S4x8192_S4x1x8192x1_0_2 : S4x8192.BroadcastsInDim S4x1x8192x1 (![0, 2] : Fin 2 → Fin S4x1x8192x1.rank)
  reducesTo_S4x12x8192x64_S4x12x8192_d3 : S4x12x8192x64.ReducesTo [3] S4x12x8192
  h_S_ : 0 < S_.numel
  bcast_S4x12x8192_S4x12x8192x1_0_1_2 : S4x12x8192.BroadcastsInDim S4x12x8192x1 (![0, 1, 2] : Fin 3 → Fin S4x12x8192x1.rank)
  bcast_S_S4x12x8192x1 : S_.BroadcastsInDim S4x12x8192x1 (![] : Fin 0 → Fin S4x12x8192x1.rank)
  bcast_S4x12x8192x1_S4x12x8192x64_0_1_2_3 : S4x12x8192x1.BroadcastsInDim S4x12x8192x64 (![0, 1, 2, 3] : Fin 4 → Fin S4x12x8192x64.rank)
  bcast_S_S4x12x8192x64 : S_.BroadcastsInDim S4x12x8192x64 (![] : Fin 0 → Fin S4x12x8192x64.rank)
  bcast_S4x1x8192x1_S4x12x8192x64_0_1_2_3 : S4x1x8192x1.BroadcastsInDim S4x12x8192x64 (![0, 1, 2, 3] : Fin 4 → Fin S4x12x8192x64.rank)
  dot_S4x12x8192x64_S4x12x8192x64_S4x12x64x64_2_2_3_3_01_01_wf : DotDims.WF S4x12x8192x64 S4x12x8192x64 S4x12x64x64 [2] [2] [3] [3] [0, 1] [0, 1]
  dot_S4x12x8192x64_S4x12x64x64_S4x12x8192x64_3_2_2_3_01_01_wf : DotDims.WF S4x12x8192x64 S4x12x64x64 S4x12x8192x64 [3] [2] [2] [3] [0, 1] [0, 1]

variable [Facts₀]

def dot_S4x12x8192x64_S4x12x8192x64_S4x12x64x64_2_2_3_3_01_01 : DotDims S4x12x8192x64 S4x12x8192x64 S4x12x64x64 where
  lhsContracting := [2]
  rhsContracting := [2]
  lhsNonContracting := [3]
  rhsNonContracting := [3]
  lhsBatch := [0, 1]
  rhsBatch := [0, 1]
  wf := dot_S4x12x8192x64_S4x12x8192x64_S4x12x64x64_2_2_3_3_01_01_wf
def dot_S4x12x8192x64_S4x12x64x64_S4x12x8192x64_3_2_2_3_01_01 : DotDims S4x12x8192x64 S4x12x64x64 S4x12x8192x64 where
  lhsContracting := [3]
  rhsContracting := [2]
  lhsNonContracting := [2]
  rhsNonContracting := [3]
  lhsBatch := [0, 1]
  rhsBatch := [0, 1]
  wf := dot_S4x12x8192x64_S4x12x64x64_S4x12x8192x64_3_2_2_3_01_01_wf

class Facts : Prop extends Facts₀ where

variable [Facts]
-- ==== Proof.KtvData.lean ====
/-
  The first call accumulates Kᵀ·V for one (batch, head) pair over the two halves of the sequence axis.
  Grid point t = (b, h, half); at half 0 the 64×64 accumulator is reset to zero before the half's
  product is added, at half 1 the product is added to what half 0 left and the sum is copied out.
  This module names the data of that call at any float instance: each window's block at a point, the
  accumulator after each point (a recursion on the point: it depends on the point before exactly when
  the point is a second half), the invariant that carries the accumulator from one point to the next,
  and the proof data built from them.
-/
import proofs.«153352_j10582799417399_1_alg».proof.Proof.Gen.KernelIdeal.Launch
import proofs.«153352_j10582799417399_1_alg».proof.Proof.Gen.KernelIdeal.Skeleton
import proofs.«153352_j10582799417399_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Ktv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mask's, K's and V's block at point `t`: 4096 rows of one batch (and head). -/
abbrev mblk (c : Dev nD) (t : Fin cfg0.N) : Vec F S1x4096x1 .f32 := iblk0 V c 0 t
abbrev kblk (c : Dev nD) (t : Fin cfg0.N) : Vec F S1x1x4096x64 .f32 := iblk0 V c 1 t
abbrev vblk (c : Dev nD) (t : Fin cfg0.N) : Vec F S1x1x4096x64 .f32 := iblk0 V c 2 t

/-- The accumulator after the body at position `n`: this half's product added to zero at a first half
    (an even position), to what the position before left at a second half. -/
def acc (c : Dev nD) : (n : ℕ) → n < cfg0.N → Vec F S64x64 .f32
  | 0, h => k0_pay3 (kblk V c ⟨0, h⟩) (vblk V c ⟨0, h⟩) (mblk V c ⟨0, h⟩) (k0_pay2 (F := F))
  | n + 1, h => k0_pay3 (kblk V c ⟨n + 1, h⟩) (vblk V c ⟨n + 1, h⟩) (mblk V c ⟨n + 1, h⟩)
      (if (n + 1) % 2 = 0 then k0_pay2 (F := F) else acc c n (Nat.lt_of_succ_lt h))

theorem acc_even (c : Dev nD) (t : Fin cfg0.N) (h : t.val % 2 = 0) :
    acc V c t.val t.isLt = k0_pay3 (kblk V c t) (vblk V c t) (mblk V c t) (k0_pay2 (F := F)) := by
  obtain ⟨n, hn⟩ := t
  cases n with
  | zero => rfl
  | succ n =>
    have h' : (n + 1) % 2 = 0 := h
    simp only [acc]; rw [if_pos h']

theorem acc_odd (c : Dev nD) (t : Fin cfg0.N) (h : t.val % 2 = 1) :
    acc V c t.val t.isLt = k0_pay3 (kblk V c t) (vblk V c t) (mblk V c t)
      (acc V c (t.val - 1) (Nat.lt_of_le_of_lt (Nat.sub_le _ _) t.isLt)) := by
  obtain ⟨n, hn⟩ := t
  cases n with
  | zero => exact absurd (show (0 : ℕ) % 2 = 1 from h) (by decide)
  | succ n =>
    have h' : (n + 1) % 2 = 1 := h
    simp only [acc]; rw [if_neg (by omega)]; rfl

/-- The accumulator: a whole scoped buffer of the kernel's own. -/
abbrev scM : Memref sig .tc .vmem S64x64 .f32 := Memref.whole cc0_scratch0

/-- The second call's six staging buffers, each at some contents: scoped buffers the first call never touches. -/
def stgRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the accumulator as a memref owned at some contents. -/
theorem PhiA0_eq (c : Dev nD) :
    (Pipeline.ΦA spec0 c : sProp 𝕄)
      = iprop(((∃ d, owns (c : Thread nD τ) scM fullShare d) ∗ stgRest (F := F) c) ∗ (∃ r, prngReg c r)) := by
  unfold Pipeline.ΦA stgRest; rw [scopedRest0_eq]; simp only [scM, owns_whole]; rfl

/-- The invariant before position `n`: before the first point the accumulator holds anything; afterwards
    what the point before left in it. -/
def PhiS (c : Dev nD) : (n : ℕ) → n ≤ cfg0.N → sProp 𝕄
  | 0, _ => Pipeline.ΦA spec0 c
  | n + 1, hn => iprop((owns (c : Thread nD τ) scM fullShare (acc V c n hn) ∗ stgRest (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (acc V c n hn) ∗ stgRest (F := F) c) ∗ (∃ r, prngReg c r)) := rfl

theorem PhiS_pos (c : Dev nD) (n : ℕ) (h : n ≤ cfg0.N) (hz : n ≠ 0) :
    PhiS V c n h = iprop((owns (c : Thread nD τ) scM fullShare (acc V c (n - 1) (by omega)) ∗ stgRest (F := F) c) ∗ (∃ r, prngReg c r)) := by
  cases n with
  | zero => exact absurd rfl hz
  | succ n => rfl

/-- The proof data of the first call on core `c`: the arrays as the call finds them; after the body each
    input's buffer at its block and the output's at the accumulator copied out; the invariant carrying the
    accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (acc V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay1 (acc V c t.val t.isLt) := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

end Cert.KernelIdeal.Ktv

end
-- ==== Proof.KtvBody.lean ====
/-
  The body of the first call at one grid point, in its two cases. At a first half (an even point) it resets
  the accumulator, adds this half's product Kfᵀ·Vm and leaves the output's buffer untouched; at a second half
  (an odd point) it adds this half's product to what the point before left and copies the sum into the
  output's buffer. From the two runs, the obligation the pipeline asks of the body at every point: the
  invariant hands the body the accumulator at what the point before left and takes it back at this point's
  contents.
-/
import proofs.«153352_j10582799417399_1_alg».proof.Proof.KtvData
import Idealize.ShloMosaic.Lib.Pipeline.Value

set_option maxRecDepth 16384

noncomputable section

namespace Cert.KernelIdeal.Ktv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' buffers hold their blocks -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The two branch conditions, decided over the 96 points -/

/-- "this is a first half": the body's test `half == 0`, as the printed scalar chain. -/
abbrev cond1 (i : grid0.Coords) : Prop := (Scalar.cmpi .ne (Scalar.extui (Scalar.cmpi .eq (BitVec.ofNat 32 (i 2).val) 0#32)) 0#32) = 1#1
theorem hcond1 : ∀ t : Fin cfg0.N, cond1 (grid0.coords t) ↔ t.val % 2 = 0 :=
  (by decide +kernel : ∀ t : Fin grid0.N, cond1 (grid0.coords t) ↔ t.val % 2 = 0)
/-- "this is the last half": the body's test `half == 1`. -/
abbrev cond2 (i : grid0.Coords) : Prop := k0_cond2 i = 1#1
theorem hcond2 : ∀ t : Fin cfg0.N, cond2 (grid0.coords t) ↔ t.val % 2 = 1 :=
  (by decide +kernel : ∀ t : Fin grid0.N, cond2 (grid0.coords t) ↔ t.val % 2 = 1)

/-- The inputs are never idle; the output is idle, and not written back, exactly at the first halves. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond2 (grid0.coords t) → cfg0.idle 3 (grid0.coords t) = true := by decide +kernel
theorem noFlush0_3 : ∀ t : Fin cfg0.N, ¬cond2 (grid0.coords t) → (cfg0.win 3).flush t = false := by decide +kernel
theorem liveAt0_3 : ∀ t : Fin cfg0.N, cond2 (grid0.coords t) → cfg0.idle 3 (grid0.coords t) = false := by decide +kernel

/-! ## The body's two runs -/

theorem hz2 : (![0, 0] : Fin 2 → ℕ) = fun _ => 0 := by
  funext a; fin_cases a <;> rfl
theorem hz3 : (![0, 0, 0] : Fin 3 → ℕ) = fun _ => 0 := by
  funext a; fin_cases a <;> rfl
theorem hz4 : (![0, 0, 0, 0] : Fin 4 → ℕ) = fun _ => 0 := by
  funext a; fin_cases a <;> rfl

/-- The whole accumulator and the whole output block, as the body addresses them. -/
abbrev rAcc : Rect S64x64 := Rect.unit (s := S64x64) ![0, 0] S64x64.size inb_S64x64_S64x64_0_0
abbrev rOut : Rect S1x1x64x64 := Rect.unit (s := S1x1x64x64) ![0, 0, 0, 0] S1x1x64x64.size inb_S1x1x64x64_S1x1x64x64_0_0_0_0

/-- A list of stores whose last store is of the whole accumulator covers it. -/
theorem cover_acc (w : Vec F S64x64 .f32) (L : List (View.Piece (Elt F) S64x64 .f32)) (y : S64x64.Idx) :
    ∃ pc ∈ ((⟨rAcc, w⟩ : View.Piece (Elt F) S64x64 .f32) :: L), y ∈ pc.1.set := by
  refine ⟨⟨rAcc, w⟩, List.mem_cons_self, ?_⟩
  have h : (rAcc : Rect S64x64) = Rect.whole S64x64 := by
    unfold rAcc; congr 1; exact hz2
  show y ∈ (rAcc : Rect S64x64).set
  rw [h, Rect.set_whole]; exact Finset.mem_univ y
/-- The one store into the output's block covers it. -/
theorem cover_out (w : Vec F S1x1x64x64 .f32) (y : S1x1x64x64.Idx) :
    ∃ pc ∈ ([⟨rOut, w⟩] : List (View.Piece (Elt F) S1x1x64x64 .f32)), y ∈ pc.1.set :=
  View.cover_of_tiled [⟨rOut, w⟩] S1x1x64x64.size (by rfl) y

set_option maxHeartbeats 2000000 in
/-- A FIRST half: the accumulator, at anything, is reset, this half's product is added to the zero just
    stored, and the output's buffer comes back untouched. -/
theorem sound_kernel0_A (c : Dev nD) (E : Set ℕ) (i : grid0.Coords)
    (arg3 : Memref sig .tc .vmem S1x4096x1 .f32) (harg3 : arg3.IsWhole)
    (arg4 : Memref sig .tc .vmem S1x1x4096x64 .f32) (harg4 : arg4.IsWhole)
    (arg5 : Memref sig .tc .vmem S1x1x4096x64 .f32) (harg5 : arg5.IsWhole)
    (arg6 : Memref sig .tc .vmem S1x1x64x64 .f32) (harg6 : arg6.IsWhole)
    (arg7 : Memref sig .tc .vmem S64x64 .f32) (harg7 : arg7.IsWhole)
    (hc1 : cond1 i) (hc2 : ¬cond2 i)
    (xm : Vec F S1x4096x1 .f32) (xk xv : Vec F S1x1x4096x64 .f32) (x6 : Vec F S1x1x64x64 .f32) (K : PUnit → sProp 𝕄) :
    iprop(owns (c : Thread nD τ) arg3 fullShare xm ∗ owns (c : Thread nD τ) arg4 fullShare xk ∗ owns (c : Thread nD τ) arg5 fullShare xv
        ∗ owns (c : Thread nD τ) arg6 fullShare x6 ∗ (∃ d, owns (c : Thread nD τ) arg7 fullShare d)
        ∗ (iprop(owns (c : Thread nD τ) arg3 fullShare xm ∗ owns (c : Thread nD τ) arg4 fullShare xk ∗ owns (c : Thread nD τ) arg5 fullShare xv
            ∗ owns (c : Thread nD τ) arg6 fullShare x6
            ∗ owns (c : Thread nD τ) arg7 fullShare (k0_pay3 xk xv xm (k0_pay2 (F := F)))) -∗ K ⟨⟩))
      ⊢ wp frame (wpE (defs₀ (F := F)) Variants.none c none) E (cc0__ktv_kernel i arg3 harg3 arg4 harg4 arg5 harg5 arg6 harg6 arg7 harg7) K := by
  simp only [cc0__ktv_kernel_eq_skeleton]; unfold cc0__ktv_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%d7, %f7, -, H7⟩, Hk⟩
  subst hf3; subst hf4; subst hf5; subst hf6
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  sl_unfold_words
  rw [View.read_writes_eq_canon _ _ _ (cover_acc _ _), View.canon_cons_unit_zero (S := S64x64) hz2]
  simp only [View.readAt_eq_ld, View.ld_unit_zero (S := S1x1x4096x64) hz4, View.ld_unit_zero (S := S1x4096x1) hz3, View.ld_unit_zero (S := S64x64) hz2, View.ld_unit_zero (S := S1x1x64x64) hz4, View.readCov_unit_zero (S := S64x64) _ hz2]

set_option maxHeartbeats 2000000 in
/-- A SECOND half: this half's product is added to what the accumulator held, and the sum is copied into
    the output's buffer, whatever that held. -/
theorem sound_kernel0_B (c : Dev nD) (E : Set ℕ) (i : grid0.Coords)
    (arg3 : Memref sig .tc .vmem S1x4096x1 .f32) (harg3 : arg3.IsWhole)
    (arg4 : Memref sig .tc .vmem S1x1x4096x64 .f32) (harg4 : arg4.IsWhole)
    (arg5 : Memref sig .tc .vmem S1x1x4096x64 .f32) (harg5 : arg5.IsWhole)
    (arg6 : Memref sig .tc .vmem S1x1x64x64 .f32) (harg6 : arg6.IsWhole)
    (arg7 : Memref sig .tc .vmem S64x64 .f32) (harg7 : arg7.IsWhole)
    (hc1 : ¬cond1 i) (hc2 : cond2 i)
    (xm : Vec F S1x4096x1 .f32) (xk xv : Vec F S1x1x4096x64 .f32) (s : Vec F S64x64 .f32) (K : PUnit → sProp 𝕄) :
    iprop(owns (c : Thread nD τ) arg3 fullShare xm ∗ owns (c : Thread nD τ) arg4 fullShare xk ∗ owns (c : Thread nD τ) arg5 fullShare xv
        ∗ (∃ d, owns (c : Thread nD τ) arg6 fullShare d) ∗ owns (c : Thread nD τ) arg7 fullShare s
        ∗ (iprop(owns (c : Thread nD τ) arg3 fullShare xm ∗ owns (c : Thread nD τ) arg4 fullShare xk ∗ owns (c : Thread nD τ) arg5 fullShare xv
            ∗ owns (c : Thread nD τ) arg6 fullShare (k0_pay1 (k0_pay3 xk xv xm s))
            ∗ owns (c : Thread nD τ) arg7 fullShare (k0_pay3 xk xv xm s)) -∗ K ⟨⟩))
      ⊢ wp frame (wpE (defs₀ (F := F)) Variants.none c none) E (cc0__ktv_kernel i arg3 harg3 arg4 harg4 arg5 harg5 arg6 harg6 arg7 harg7) K := by
  simp only [cc0__ktv_kernel_eq_skeleton]; unfold cc0__ktv_kernel_skel
  simp only [k0_part1_eq_skeleton]; unfold k0_part1_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover_out _), View.canon_unit_zero (S := S1x1x64x64) hz4]
    simp only [View.readAt_eq_ld, View.ld_unit_zero (S := S1x1x4096x64) hz4, View.ld_unit_zero (S := S1x4096x1) hz3, View.ld_unit_zero (S := S64x64) hz2, View.ld_unit_zero (S := S1x1x64x64) hz4, View.readCov_unit_zero (S := S64x64) _ hz2]
  iexists _; isplitr
  swap; · iexact H7
  ipureintro
  sl_unfold_words
  rw [View.read_writes_eq_canon _ _ _ (cover_acc _ _), View.canon_cons_unit_zero (S := S64x64) hz2]
  simp only [View.readAt_eq_ld, View.ld_unit_zero (S := S1x1x4096x64) hz4, View.ld_unit_zero (S := S1x4096x1) hz3, View.ld_unit_zero (S := S64x64) hz2, View.ld_unit_zero (S := S1x1x64x64) hz4, View.readCov_unit_zero (S := S64x64) _ hz2]

/-! ## The obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: each buffer at what the body leaves — for the output at a first half, where the body
    stores nothing into it and the pipeline does not write it back, what it was handed. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' buffers hold their blocks; the point's parity says which case it is in.
    The invariant hands the body the accumulator at what the point before left (at anything before the first
    point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  by_cases h2 : t.val % 2 = 1
  · -- a second half: no reset, the sum copied out
    have hc1 : ¬cond1 (grid0.coords t) := fun h => by have := (hcond1 t).mp h; omega
    have hc2 : cond2 (grid0.coords t) := (hcond2 t).mpr h2
    rw [show (dat0 V c).leavesExact 3 t = owns (c : Thread nD τ) (st0_3 t) fullShare ((dat0 V c).after 3 t) from by
      unfold Dat.leavesExact; rw [liveAt0_3 t hc2], after0_3]
    rw [acc_odd V c t h2]
    have hz : t.val ≠ 0 := by omega
    rw [PhiS_castSucc V c t, PhiS_pos V c _ _ hz]
    iintro ⟨⟨⟨HS, Hr⟩, Hg⟩, Ho, ⟨%d0, H0⟩, ⟨%d1, H1⟩, ⟨%d2, H2⟩, ⟨%d3, H3⟩⟩
    iapply (sound_kernel0_B c Set.univ (grid0.coords t) _ _ _ _ _ _ _ _ _ _ hc1 hc2 (mblk V c t) (kblk V c t) (vblk V c t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · -- a first half: the accumulator reset, the output's buffer handed back untouched
    have h0 : t.val % 2 = 0 := by omega
    have hc1 : cond1 (grid0.coords t) := (hcond1 t).mpr h0
    have hc2 : ¬cond2 (grid0.coords t) := fun h => h2 ((hcond2 t).mp h)
    rw [Dat.leavesExact_idle (dat0 V c) 3 t (idleAt0_3 t hc2) (noFlush0_3 t hc2)]
    rw [acc_even V c t h0]
    by_cases hz : t.val = 0
    · rw [PhiS_castSucc V c t, PhiS_zero V c _ _ hz, PhiA0_eq]
      iintro ⟨⟨⟨HS, Hr⟩, Hg⟩, Ho, ⟨%d0, H0⟩, ⟨%d1, H1⟩, ⟨%d2, H2⟩, ⟨%d3, H3⟩⟩
      iapply (sound_kernel0_A c Set.univ (grid0.coords t) _ _ _ _ _ _ _ _ _ _ hc1 hc2 (mblk V c t) (kblk V c t) (vblk V c t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩⟩
      iapply (sound_kernel0_A c Set.univ (grid0.coords t) _ _ _ _ _ _ _ _ _ _ hc1 hc2 (mblk V c t) (kblk V c t) (vblk V c t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the call is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: what the accumulator holds is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; exact (by decide : cfg0.N ≠ 0)), PhiA0_eq]
  iintro ⟨⟨HS, Hr⟩, Hg⟩
  isplitl [HS Hr]
  · isplitl [HS]; · iexists _; iexact HS
    iexact Hr
  iexact Hg

end Cert.KernelIdeal.Ktv

end
-- ==== Proof.OutData.lean ====
/-
  The second call computes, for one (batch, head) pair, the normalised and scaled Q (8192 rows) times the
  64×64 matrix the first call left. One grid point per pair, nothing carried between points. This module
  names its data at any float instance: each window's block at a point and the proof data.
-/
import proofs.«153352_j10582799417399_1_alg».proof.Proof.Gen.KernelIdeal.Launch
import proofs.«153352_j10582799417399_1_alg».proof.Proof.Gen.KernelIdeal.Skeleton
import proofs.«153352_j10582799417399_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Q's block (all 8192 rows of one batch and head) and the 64×64 matrix's block at point `t`. -/
abbrev qblk (c : Dev nD) (t : Fin cfg1.N) : Vec F S1x1x8192x64 .f32 := iblk1 V c 0 t
abbrev mxblk (c : Dev nD) (t : Fin cfg1.N) : Vec F S1x1x64x64 .f32 := iblk1 V c 1 t

/-- The proof data of the second call on core `c`: the arrays as the call finds them; after the body each
    input's buffer at its block and the output's at the product; the class's invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (qblk V c t) (mxblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (qblk V c t) (mxblk V c t) := by dsimp only [dat1]

end Cert.KernelIdeal.Out

end
-- ==== Proof.OutBody.lean ====
/-
  The body of the second call at one grid point: on whole staging buffers holding Q's block and the 64×64
  matrix's block it runs to the end and leaves, in the output's buffer, the block
  (Q / max(‖Q‖, ε)) · scale  times the matrix, the inputs' buffers as they were. From that, the obligation
  the pipeline asks of the body at every point.
-/
import proofs.«153352_j10582799417399_1_alg».proof.Proof.OutData
import Idealize.ShloMosaic.Lib.Pipeline.Value

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- An input's current staging buffer holds its block at every point: both inputs are fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The whole block of each buffer, as the body addresses it: offset zero, full extent. -/
abbrev rQ : Rect S1x1x8192x64 := Rect.unit (s := S1x1x8192x64) ![0, 0, 0, 0] S1x1x8192x64.size inb_S1x1x8192x64_S1x1x8192x64_0_0_0_0
abbrev rM : Rect S1x1x64x64 := Rect.unit (s := S1x1x64x64) ![0, 0, 0, 0] S1x1x64x64.size inb_S1x1x64x64_S1x1x64x64_0_0_0_0

theorem hz4 : (![0, 0, 0, 0] : Fin 4 → ℕ) = fun _ => 0 := by
  funext a; fin_cases a <;> rfl

/-- The one store covers the output's buffer. -/
theorem cover1_2 (p0 : Vec F S1x1x8192x64 .f32) (y : S1x1x8192x64.Idx) :
    ∃ pc ∈ ([⟨rQ, p0⟩] : List (View.Piece (Elt F) S1x1x8192x64 .f32)), y ∈ pc.1.set :=
  View.cover_of_tiled [⟨rQ, p0⟩] S1x1x8192x64.size (by rfl) y

set_option maxHeartbeats 1000000 in
/-- The body on whole staging buffers, the inputs' at contents `x0`, `x1` and the output's at anything, runs to
    the continuation with the inputs' as they were and the output's at the product. -/
theorem sound_kernel1 (c : Dev nD) (E : Set ℕ) (i : grid1.Coords)
    (arg2 : Memref sig .tc .vmem S1x1x8192x64 .f32) (harg2 : arg2.IsWhole)
    (arg3 : Memref sig .tc .vmem S1x1x64x64 .f32) (harg3 : arg3.IsWhole)
    (arg4 : Memref sig .tc .vmem S1x1x8192x64 .f32) (harg4 : arg4.IsWhole)
    (x0 : Vec F S1x1x8192x64 .f32) (x1 : Vec F S1x1x64x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1_2 _), View.canon_unit_zero hz4]
  simp only [View.readAt_eq_ld, View.ld_unit_zero (S := S1x1x8192x64) hz4, View.ld_unit_zero (S := S1x1x64x64) hz4]

/-! ## The obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's run applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Out

end
-- ==== Proof.TwoRegions.lean ====
/-
  The whole program: one host line (the mask widened to [4, 8192, 1]), then the two calls. Between items the
  TensorCore holds every unscoped buffer whole: as launched, then after the host line, then with the first
  call's result buffer at what its write-backs leave (its 64×64 matrices), then with the second call's result
  buffer at what its write-backs leave. Each call is entered from that state and left at the next; beside the
  buffers ride only the generator register, at some state, and the core owing nothing. From the two calls'
  obligations: every fair execution terminates, faults nowhere, leaves the arguments as launched — and leaves
  the second call's result buffer at the contents named here.
-/
import proofs.«153352_j10582799417399_1_alg».proof.Proof.KtvBody
import proofs.«153352_j10582799417399_1_alg».proof.Proof.OutBody
import proofs.«153352_j10582799417399_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen Cert.KernelIdeal.Ktv Cert.KernelIdeal.Out
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- What the first call is entered with, read at the TensorCore's references: the launch contents after the
    host line. -/
abbrev E1 : (c : Dev nD) → (b : Ref sig .tc) → Buf (Elt F) ((c : Thread nD τ).loc b) := fun c b => V1 m c b

/-- After the first call: its result buffer at what its write-backs leave, every other buffer as entered. -/
def W2 (c : Dev nD) : Valuation τ sig (Elt F) :=
  Function.update (V1 m c) main_v1 ((dat0 (E1 m) c).arrAt 3 cfg0.N)
/-- What the second call is entered with. -/
abbrev E2 : (c : Dev nD) → (b : Ref sig .tc) → Buf (Elt F) ((c : Thread nD τ).loc b) := fun c b => W2 m c b
/-- After the second call: its result buffer at what its write-backs leave. -/
def W3 (c : Dev nD) : Valuation τ sig (Elt F) :=
  Function.update (W2 m c) main_v2 ((dat1 (E2 m) c).arrAt 2 cfg1.N)

/-- What the two calls leave in the buffers they may change. -/
def outs : Outs (F := F) := fun J r c => match J with
  | 2 => W2 m c r
  | _ => W3 m c r

theorem V2_eq (c : Dev nD) : V2 m (outs m) c = W2 m c := by
  show Function.update (V1 m c) main_v1 (W2 m c main_v1) = W2 m c
  unfold W2; rw [Function.update_self]
theorem V3_eq (c : Dev nD) : V3 m (outs m) c = W3 m c := by
  show Function.update (V2 m (outs m) c) main_v2 (W3 m c main_v2) = W3 m c
  rw [V2_eq]; unfold W3; rw [Function.update_self]

/-! ## What each call leaves, against the next item's contents -/

theorem hF0 (c : Dev nD) (w : Fin cfg0.W) : (dat0 (E1 m) c).arrAt w cfg0.N = E2 m c (Pipeline.arrRef spec0 w) := by
  match w with
  | ⟨0, _⟩ =>
    refine (((dat0 (E1 m) c).arrAt_in 0 rfl _).trans (A_eq0 (E1 m) c 0)).trans ?_
    show V1 m c main_v0 = W2 m c main_v0
    unfold W2; exact (Function.update_of_ne (StableHlo.devRef_ne_of_ne (by decide)) _ _).symm
  | ⟨1, _⟩ =>
    refine (((dat0 (E1 m) c).arrAt_in 1 rfl _).trans (A_eq0 (E1 m) c 1)).trans ?_
    show V1 m c main_arg1 = W2 m c main_arg1
    unfold W2; exact (Function.update_of_ne (StableHlo.devRef_ne_of_ne (by decide)) _ _).symm
  | ⟨2, _⟩ =>
    refine (((dat0 (E1 m) c).arrAt_in 2 rfl _).trans (A_eq0 (E1 m) c 2)).trans ?_
    show V1 m c main_arg2 = W2 m c main_arg2
    unfold W2; exact (Function.update_of_ne (StableHlo.devRef_ne_of_ne (by decide)) _ _).symm
  | ⟨3, _⟩ =>
    show (dat0 (E1 m) c).arrAt 3 cfg0.N = W2 m c main_v1
    unfold W2; rw [Function.update_self]
theorem hrest0 (c : Dev nD) : ∀ b, b ∉ Finset.univ.image (Pipeline.arrRef spec0) → E2 m c b = E1 m c b := fun b hb => by
  have hne : b ≠ main_v1 := fun e => hb (Finset.mem_image.mpr ⟨(3 : Fin cfg0.W), Finset.mem_univ _, (show Pipeline.arrRef spec0 3 = b from e.symm)⟩)
  show W2 m c b = V1 m c b
  unfold W2; exact Function.update_of_ne (StableHlo.devRef_ne_of_ne hne) _ _

/-- What the second call leaves, read at the TensorCore's references. -/
abbrev E3 : (c : Dev nD) → (b : Ref sig .tc) → Buf (Elt F) ((c : Thread nD τ).loc b) := fun c b => W3 m c b

theorem hF1 (c : Dev nD) (w : Fin cfg1.W) : (dat1 (E2 m) c).arrAt w cfg1.N = E3 m c (Pipeline.arrRef spec1 w) := by
  match w with
  | ⟨0, _⟩ =>
    refine (((dat1 (E2 m) c).arrAt_in 0 rfl _).trans (A_eq1 (E2 m) c 0)).trans ?_
    show W2 m c main_arg0 = W3 m c main_arg0
    unfold W3; exact (Function.update_of_ne (StableHlo.devRef_ne_of_ne (by decide)) _ _).symm
  | ⟨1, _⟩ =>
    refine (((dat1 (E2 m) c).arrAt_in 1 rfl _).trans (A_eq1 (E2 m) c 1)).trans ?_
    show W2 m c main_v1 = W3 m c main_v1
    unfold W3; exact (Function.update_of_ne (StableHlo.devRef_ne_of_ne (by decide)) _ _).symm
  | ⟨2, _⟩ =>
    show (dat1 (E2 m) c).arrAt 2 cfg1.N = W3 m c main_v2
    unfold W3; rw [Function.update_self]
theorem hrest1 (c : Dev nD) : ∀ b, b ∉ Finset.univ.image (Pipeline.arrRef spec1) → E3 m c b = E2 m c b := fun b hb => by
  have hne : b ≠ main_v2 := fun e => hb (Finset.mem_image.mpr ⟨(2 : Fin cfg1.W), Finset.mem_univ _, (show Pipeline.arrRef spec1 2 = b from e.symm)⟩)
  show W3 m c b = W2 m c b
  unfold W3; exact Function.update_of_ne (StableHlo.devRef_ne_of_ne hne) _ _

/-! ## The proof data family and the rest state -/

/-- Both calls' proof data, each at what its call is entered with: a literal match on the call's number. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, the core owing nothing. -/
abbrev R (c : Dev nD) : sProp 𝕄 := iprop((∃ r, prngReg c r) ∗ ∃ W, owes (c : Thread nD τ) (0 : CellTallies nD τ sig Unit) W)

/-- At launch every core holds its generator register and owes nothing: the rest state, on all cores at once. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  have hcore : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄)
      ⊢ (R (F := F) c : sProp 𝕄) := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => R (F := F) c) : sProp 𝕄) :=
    bigSep_mono fun c _ => hcore c
  iintro ⟨H, -⟩
  imodintro
  ihave H' := hmono $$ H
  iexact H'

/-- The launch's ghost state is what the library's rounds start from; no core is handed anything else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The rest state ends owing nothing. -/
theorem hE2 (c : Dev nD) : (R (F := F) c : sProp 𝕄)
    ⊢ (iprop(∃ W, owes (c : Thread nD τ) (0 : CellTallies nD τ sig Unit) W) : sProp 𝕄) := by
  iintro ⟨-, HO⟩; iexact HO

/-! ## The calls as segments -/

-- `iapply` of a library lemma stated over the pinned configuration unifies with the printed one only when unification
-- may unfold plain definitions in a metavariable's type
set_option backward.isDefEq.respectTransparency.types false in
/-- Call 0 over the thread state: entered with every unscoped buffer at `V1`, left with them at `W2`. Its
    arrays are split out of the unscoped buffers and put back at what the write-backs leave; the generator
    register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification
-- may unfold plain definitions in a metavariable's type
set_option backward.isDefEq.respectTransparency.types false in
/-- Call 1 over the thread state: entered with every unscoped buffer at `W2`, left with them at `W3`. Its
    arrays are split out of the unscoped buffers and put back at what the write-backs leave; the generator
    register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE FRAME: from any memory with zero counters every fair execution of the program terminates, nothing
    faulting, and every final memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp))
    (initOf (Pipeline.cells cfgs cellOf_inj) (Pipeline.launchToks cfgs cellOf_inj))
    (hu₀ (F := F))
    (fun _ c => R c)
    (hE0 ρ)
    (hE2 (F := F))
    (reg0 m) (fun c => .rfl) (fun c => by rw [V2_eq]; exact .rfl)
    (reg1 m) (fun c => by rw [V2_eq]; exact .rfl) (fun c => by rw [V3_eq]; exact .rfl)

end Cert.KernelIdeal.Run

end
-- ==== Proof.TwoRegionsVal.lean ====
/-
  The idealized program's run with its result named: beside the arguments ending as launched, the result
  buffer ends at what the second call's write-backs leave, the second call having been entered with the first
  call's result. Same launch, same records; only the post reads one more buffer off the last contents.
-/
import proofs.«153352_j10582799417399_1_alg».proof.Proof.TwoRegions
import proofs.«153352_j10582799417399_1_alg».proof.Proof.RegionsVal

set_option maxRecDepth 16384

noncomputable section

namespace Cert.KernelIdeal.Run

open Cert.KernelIdeal Cert.KernelIdeal.Gen Cert.KernelIdeal.Ktv Cert.KernelIdeal.Out
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN WITH ITS RESULT: the same, and the result buffer ends at what the second call's write-backs leave,
    the second call entered with the first call's result. -/
theorem run_val : θ_run defs (onTc (τ := τ) (main (F := F))) ⟨m, fun _ => 0, ρ⟩ (fun r => ∀ c : Dev nD,
      r.2.mem ((c.tc : Thread nD τ).loc main_v2) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (by rw [V3_eq]; unfold W3; rw [Function.update_self]), (h c).2⟩)
    (frame_cond_val m emb₁ () 𝒱₀ L lv (fun _ _ => rfl) ρ (outs m) (pdats m) 0 (fun _ => iprop(emp))
    (initOf (Pipeline.cells cfgs cellOf_inj) (Pipeline.launchToks cfgs cellOf_inj))
    (hu₀ (F := F))
    (fun _ c => R c)
    (hE0 ρ)
    (hE2 (F := F))
    (reg0 m) (fun c => .rfl) (fun c => by rw [V2_eq]; exact .rfl)
    (reg1 m) (fun c => by rw [V2_eq]; exact .rfl) (fun c => by rw [V3_eq]; exact .rfl))

end Cert.KernelIdeal.Run

end
-- ==== Proof.CosAttnSpec.lean ====
/-
  What cosine-normalised linear attention computes, over the extended reals, index by index.
  For Q, K, V of shape [4, 12, 8192, 64] and a mask of shape [4, 8192]:
    den x b h n   = max (sqrt (Σ_d x[b,h,n,d]²)) ε             the clamped row norm
    qf[b,h,n,d]   = Q[b,h,n,d] / den Q b h n · s
    kf[b,h,n,d]   = K[b,h,n,d] / den K b h n · mask[b,n] · s
    vm[b,h,n,e]   = V[b,h,n,e] · mask[b,n]
    ktv[b,h,d,e]  = Σ_n kf[b,h,n,d] · vm[b,h,n,e]              a 64×64 matrix per (batch, head)
    out[b,h,n,e]  = Σ_d qf[b,h,n,d] · ktv[b,h,d,e]
  ε and s are the two float constants both programs carry, kept as their bit patterns: the same word on
  both sides is never evaluated. The one law used between the two programs is that the sum over the 8192
  rows is the sum over the first 4096 plus the sum over the last 4096: addition of extended reals is
  commutative and associative (no finiteness is needed for that).
-/
import Idealize.ShloMosaic.PureOps.Ideal
import Idealize.ShloMosaic.PureOps.Ideal.Laws
import Idealize.ShloMosaic.Lib.ValueIdx

noncomputable section

namespace CosAttn

open Idealize.ShloMosaic

/-- The clamp under the norm and the scale N^(-1/4), as the float words both programs carry. -/
abbrev eps : EReal := Ideal.ofBits .f32 0x2B8CBCCC#32
abbrev scale : EReal := Ideal.ofBits .f32 0x3DD744FD#32

variable (Q K V : Fin 4 → Fin 12 → Fin 8192 → Fin 64 → EReal) (mask : Fin 4 → Fin 8192 → EReal)

/-- The clamped Euclidean norm of row `n`. -/
def den (x : Fin 4 → Fin 12 → Fin 8192 → Fin 64 → EReal) (b : Fin 4) (h : Fin 12) (n : Fin 8192) : EReal :=
  max (Ideal.sqrt (∑ d : Fin 64, x b h n d * x b h n d)) eps

def qf (b : Fin 4) (h : Fin 12) (n : Fin 8192) (d : Fin 64) : EReal :=
  Ideal.div (Q b h n d) (den Q b h n) * scale

def kf (b : Fin 4) (h : Fin 12) (n : Fin 8192) (d : Fin 64) : EReal :=
  Ideal.div (K b h n d) (den K b h n) * mask b n * scale

def vm (b : Fin 4) (h : Fin 12) (n : Fin 8192) (e : Fin 64) : EReal :=
  V b h n e * mask b n

/-- Kᵀ·V of one (batch, head): contracted over all 8192 rows. -/
def ktv (b : Fin 4) (h : Fin 12) (d e : Fin 64) : EReal :=
  ∑ n : Fin 8192, kf K mask b h n d * vm V mask b h n e

/-- The result. -/
def out (b : Fin 4) (h : Fin 12) (n : Fin 8192) (e : Fin 64) : EReal :=
  ∑ d : Fin 64, qf Q b h n d * ktv K V mask b h d e

/-- Row `r` of half `j` (0 or 1) of the sequence axis. -/
def rowOf (j : Fin 2) (r : Fin 4096) : Fin 8192 := ⟨j.val * 4096 + r.val, by have := j.isLt; have := r.isLt; omega⟩

/-- One half's share of Kᵀ·V. -/
def ktvHalf (j : Fin 2) (b : Fin 4) (h : Fin 12) (d e : Fin 64) : EReal :=
  ∑ r : Fin 4096, kf K mask b h (rowOf j r) d * vm V mask b h (rowOf j r) e

/-- A sum over 8192 rows is the sum over the first 4096 plus the sum over the last 4096. -/
theorem sum_halves (f : Fin 8192 → EReal) :
    ∑ n : Fin 8192, f n = (∑ r : Fin 4096, f (rowOf 0 r)) + ∑ r : Fin 4096, f (rowOf 1 r) := by
  have h := Fin.sum_univ_add (a := 4096) (b := 4096) (f : Fin (4096 + 4096) → EReal)
  refine h.trans ?_
  congr 1

/-- Kᵀ·V is zero plus the first half's share plus the second half's: how the accumulator builds it. -/
theorem ktv_eq_halves (b : Fin 4) (h : Fin 12) (d e : Fin 64) :
    ktv K V mask b h d e = (0 + ktvHalf K V mask 0 b h d e) + ktvHalf K V mask 1 b h d e := by
  unfold ktv ktvHalf; rw [sum_halves, zero_add]

end CosAttn

end
-- ==== Proof.KtvValue.lean ====
/-
  What the first call leaves in its result array, over the extended reals: entry (b, h, d, e) is
  Σ_n kf[b,h,n,d] · vm[b,h,n,e] over all 8192 rows — the specification's Kᵀ·V — of the arrays the call was
  entered with (K, V and the mask widened to [4, 8192, 1]).
-/
import proofs.«153352_j10582799417399_1_alg».proof.Proof.KtvData
import proofs.«153352_j10582799417399_1_alg».proof.Proof.CosAttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KtvValue

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the call is entered, at the ideal instance
variable (V : (c : Dev nD) → (b : Ref sig .tc) → Buf (Elt Ideal) ((c : Thread nD τ).loc b))

open Cert.KernelIdeal.Ktv

/-- The arrays the first call reads, by coordinates. -/
def Karr (c : Dev nD) : Fin 4 → Fin 12 → Fin 8192 → Fin 64 → EReal :=
  fun b h n d => (V c main_arg1 : S4x12x8192x64.Idx → EReal) (ix4 b h n d)
def Varr (c : Dev nD) : Fin 4 → Fin 12 → Fin 8192 → Fin 64 → EReal :=
  fun b h n e => (V c main_arg2 : S4x12x8192x64.Idx → EReal) (ix4 b h n e)
def Marr (c : Dev nD) : Fin 4 → Fin 8192 → EReal :=
  fun b n => (V c main_v0 : S4x8192x1.Idx → EReal) (ix3 b n 0)

/-! ## The layout operations of the payload, read at an index -/

/-- A [1,1,4096,64] block viewed [4096,64]: entry (r, d) is the block's (0, 0, r, d). -/
theorem cast_blk (x : Vec Ideal S1x1x4096x64 .f32) (r : Fin 4096) (d : Fin 64) :
    shapeCast S4096x64 x shapeCasts_S1x1x4096x64_S4096x64 (ix2 r d) = x (ix4 (0 : Fin 1) (0 : Fin 1) r d) :=
  shapeCast_apply x _ _ _ (by
    rw [Shape.rowMajor_val_four, Shape.rowMajor_val_two]
    show ((0 * 1 + 0) * 4096 + r.val) * 64 + d.val = r.val * 64 + d.val
    omega)

/-- The mask's [1,4096,1] block viewed [4096,1]. -/
theorem cast_mask (x : Vec Ideal S1x4096x1 .f32) (r : Fin 4096) (z : Fin 1) :
    shapeCast S4096x1 x shapeCasts_S1x4096x1_S4096x1 (ix2 r z) = x (ix3 (0 : Fin 1) r (0 : Fin 1)) :=
  shapeCast_apply x _ _ _ (by
    have hz : z.val = 0 := by omega
    rw [Shape.rowMajor_val_three, Shape.rowMajor_val_two]
    show (0 * 4096 + r.val) * 1 + 0 = r.val * 1 + z.val
    omega)

/-- A [4096] column viewed [4096,1]. -/
theorem cast_col (x : FVec Ideal S4096 .f32) (r : Fin 4096) (z : Fin 1) :
    shapeCast S4096x1 x shapeCasts_S4096_S4096x1 (ix2 r z) = x (ix1 r) :=
  shapeCast_apply x _ _ _ (by
    have hz : z.val = 0 := by omega
    rw [Shape.rowMajor_val_one, Shape.rowMajor_val_two]
    show r.val = r.val * 1 + z.val
    omega)

/-- A [4096,1] column broadcast along the lanes. -/
theorem bcast_col (x : FVec Ideal S4096x1 .f32) (r : Fin 4096) (d : Fin 64) :
    broadcastTo S4096x64 x broadcasts_S4096x1_S4096x64 (ix2 r d) = x (ix2 r (0 : Fin 1)) := by
  refine broadcastTo_apply x _ (ix2 r d) (ix2 r (0 : Fin 1)) fun ax => ?_
  match ax with
  | ⟨0, _⟩ => rfl
  | ⟨1, _⟩ => rfl

/-- The lane sum of a [4096,64] vector at row r. -/
theorem lane_sum (x : FVec Ideal S4096x64 .f32) (r : Fin 4096) :
    multiReduction (F := Ideal) .add [1] S4096 x 0x00000000#32 reduces_S4096x64_S4096 (.inl rfl) rfl (ix1 r)
      = ∑ d : Fin 64, x (ix2 r d) := by
  refine (Ideal.multiReduction_add_single x 0x00000000#32 reduces_S4096x64_S4096 (.inl rfl) rfl (ix1 r)).trans ?_
  refine Finset.sum_congr rfl fun d _ => ?_
  exact congrArg x (funext fun a => Fin.ext (by match a with | ⟨0, _⟩ => rfl | ⟨1, _⟩ => rfl))

/-! ## The matrix product of the payload, read at an index -/

-- The operands' indices at output entry i and contraction index q: both operands are contracted along their rows
-- (axis 0 reads q); the left one's lane is the entry's first coordinate, the right one's lane its second.
theorem lhs_ktv_0 (i : S64x64.Idx) (q : dot_S4096x64_S4096x64_S64x64_0_0_1_1_n_n.contr.Idx) :
    (dot_S4096x64_S4096x64_S64x64_0_0_1_1_n_n.lhsIdx i q 0).val = (q ⟨0, by decide⟩).val :=
  dot_S4096x64_S4096x64_S64x64_0_0_1_1_n_n.lhsIdx_val_of_single rfl i q
theorem lhs_ktv_1 (i : S64x64.Idx) (q : dot_S4096x64_S4096x64_S64x64_0_0_1_1_n_n.contr.Idx) :
    (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
theorem rhs_ktv_0 (i : S64x64.Idx) (q : dot_S4096x64_S4096x64_S64x64_0_0_1_1_n_n.contr.Idx) :
    (dot_S4096x64_S4096x64_S64x64_0_0_1_1_n_n.rhsIdx i q 0).val = (q ⟨0, by decide⟩).val :=
  dot_S4096x64_S4096x64_S64x64_0_0_1_1_n_n.rhsIdx_val_of_single rfl i q
theorem rhs_ktv_1 (i : S64x64.Idx) (q : dot_S4096x64_S4096x64_S64x64_0_0_1_1_n_n.contr.Idx) :
    (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl

/-- The product contracted over the 4096 rows, into zeros: entry (d, e) is Σ_r a[r,d] · b[r,e]. -/
theorem matmul_rows (a b : FVec Ideal S4096x64 .bf16) (d e : Fin 64) :
    matmul dot_S4096x64_S4096x64_S64x64_0_0_1_1_n_n none a b (constant (F := Ideal) S64x64 .f32 0x00000000#32) (ix2 d e)
      = ∑ r : Fin 4096, a (ix2 r d) * b (ix2 r e) := by
  simp only [matmul]
  rw [Ideal.matmul_constant_zero_apply, ← Equiv.sum_comp (ValueIdx.contrEquiv1 dot_S4096x64_S4096x64_S64x64_0_0_1_1_n_n 4096 rfl rfl).symm]
  refine Finset.sum_congr rfl fun k _ => ?_
  have hk := ValueIdx.contrEquiv1_symm_val dot_S4096x64_S4096x64_S64x64_0_0_1_1_n_n 4096 rfl rfl k
  have el : dot_S4096x64_S4096x64_S64x64_0_0_1_1_n_n.lhsIdx (ix2 d e) ((ValueIdx.contrEquiv1 dot_S4096x64_S4096x64_S64x64_0_0_1_1_n_n 4096 rfl rfl).symm k) = ix2 k d := funext fun ax => Fin.ext (by
    match ax with
    | ⟨0, _⟩ => exact (lhs_ktv_0 _ _).trans hk
    | ⟨1, _⟩ => exact lhs_ktv_1 _ _)
  have er : dot_S4096x64_S4096x64_S64x64_0_0_1_1_n_n.rhsIdx (ix2 d e) ((ValueIdx.contrEquiv1 dot_S4096x64_S4096x64_S64x64_0_0_1_1_n_n 4096 rfl rfl).symm k) = ix2 k e := funext fun ax => Fin.ext (by
    match ax with
    | ⟨0, _⟩ => exact (rhs_ktv_0 _ _).trans hk
    | ⟨1, _⟩ => exact rhs_ktv_1 _ _)
  rw [el, er]

/-! ## The payloads at an index -/

/-- Row r's clamped norm of a K block. -/
def denB (k : Vec Ideal S1x1x4096x64 .f32) (r : Fin 4096) : EReal :=
  max (Ideal.sqrt (∑ d : Fin 64, k (ix4 (0 : Fin 1) (0 : Fin 1) r d) * k (ix4 (0 : Fin 1) (0 : Fin 1) r d))) CosAttn.eps

/-- Row r of a K block normalised, masked and scaled. -/
def kfB (k : Vec Ideal S1x1x4096x64 .f32) (m : Vec Ideal S1x4096x1 .f32) (r : Fin 4096) (d : Fin 64) : EReal :=
  Ideal.div (k (ix4 (0 : Fin 1) (0 : Fin 1) r d)) (denB k r) * m (ix3 (0 : Fin 1) r (0 : Fin 1)) * CosAttn.scale

/-- Row r of a V block masked. -/
def vmB (v : Vec Ideal S1x1x4096x64 .f32) (m : Vec Ideal S1x4096x1 .f32) (r : Fin 4096) (e : Fin 64) : EReal :=
  v (ix4 (0 : Fin 1) (0 : Fin 1) r e) * m (ix3 (0 : Fin 1) r (0 : Fin 1))

/-- The K block normalised, masked and scaled, as the payload builds it. -/
def kfVec (k : Vec Ideal S1x1x4096x64 .f32) (m : Vec Ideal S1x4096x1 .f32) : FVec Ideal S4096x64 .f32 :=
  mulf (mulf (divf (shapeCast S4096x64 k shapeCasts_S1x1x4096x64_S4096x64)
      (broadcastTo S4096x64 (maximumf (sqrt (shapeCast S4096x1
          (multiReduction (F := Ideal) .add [1] S4096
            (mulf (shapeCast S4096x64 k shapeCasts_S1x1x4096x64_S4096x64) (shapeCast S4096x64 k shapeCasts_S1x1x4096x64_S4096x64))
            0x00000000#32 reduces_S4096x64_S4096 (.inl rfl) rfl) shapeCasts_S4096_S4096x1))
        (broadcast S4096x1 (Scalar.ofBits (F := Ideal) .f32 0x2B8CBCCC#32))) broadcasts_S4096x1_S4096x64))
      (broadcastTo S4096x64 (shapeCast S4096x1 m shapeCasts_S1x4096x1_S4096x1) broadcasts_S4096x1_S4096x64))
    (broadcast S4096x64 (Scalar.ofBits (F := Ideal) .f32 0x3DD744FD#32))

/-- The V block masked, as the payload builds it. -/
def vmVec (v : Vec Ideal S1x1x4096x64 .f32) (m : Vec Ideal S1x4096x1 .f32) : FVec Ideal S4096x64 .f32 :=
  mulf (shapeCast S4096x64 v shapeCasts_S1x1x4096x64_S4096x64)
    (broadcastTo S4096x64 (shapeCast S4096x1 m shapeCasts_S1x4096x1_S4096x1) broadcasts_S4096x1_S4096x64)

/-- The payload is the accumulator plus the product of those two. -/
theorem pay3_eq (k v : Vec Ideal S1x1x4096x64 .f32) (m : Vec Ideal S1x4096x1 .f32) (s : Vec Ideal S64x64 .f32) :
    k0_pay3 k v m s = addf s (matmul dot_S4096x64_S4096x64_S64x64_0_0_1_1_n_n none
      (truncf .bf16 (kfVec k m) bitsLt_bf16_f32) (truncf .bf16 (vmVec v m) bitsLt_bf16_f32)
      (constant (F := Ideal) S64x64 .f32 0x00000000#32)) := by
  unfold k0_pay3 kfVec vmVec
  exact shapeCast_self _ _

/-- The squares of row r of a K block, summed along the lanes. -/
theorem sq_row (k : Vec Ideal S1x1x4096x64 .f32) (r : Fin 4096) :
    ∑ d : Fin 64, mulf (F := Ideal) (φ := .f32) (shapeCast S4096x64 k shapeCasts_S1x1x4096x64_S4096x64) (shapeCast S4096x64 k shapeCasts_S1x1x4096x64_S4096x64) (ix2 r d)
      = ∑ d : Fin 64, k (ix4 (0 : Fin 1) (0 : Fin 1) r d) * k (ix4 (0 : Fin 1) (0 : Fin 1) r d) :=
  Finset.sum_congr rfl fun d _ => by
    show shapeCast S4096x64 k shapeCasts_S1x1x4096x64_S4096x64 (ix2 r d) * shapeCast S4096x64 k shapeCasts_S1x1x4096x64_S4096x64 (ix2 r d) = _
    rw [cast_blk]

theorem kfVec_apply (k : Vec Ideal S1x1x4096x64 .f32) (m : Vec Ideal S1x4096x1 .f32) (r : Fin 4096) (d : Fin 64) :
    kfVec k m (ix2 r d) = kfB k m r d := by
  unfold kfVec kfB denB
  show Ideal.div (shapeCast S4096x64 k shapeCasts_S1x1x4096x64_S4096x64 (ix2 r d))
      (broadcastTo S4096x64 _ broadcasts_S4096x1_S4096x64 (ix2 r d))
    * broadcastTo S4096x64 (shapeCast S4096x1 m shapeCasts_S1x4096x1_S4096x1) broadcasts_S4096x1_S4096x64 (ix2 r d)
    * Ideal.ofBits .f32 0x3DD744FD#32 = _
  rw [cast_blk, bcast_col, bcast_col, cast_mask]
  show Ideal.div _ (max (Ideal.sqrt (shapeCast S4096x1 _ shapeCasts_S4096_S4096x1 (ix2 r (0 : Fin 1)))) CosAttn.eps) * _ * CosAttn.scale = _
  rw [cast_col, lane_sum, sq_row]

theorem vmVec_apply (v : Vec Ideal S1x1x4096x64 .f32) (m : Vec Ideal S1x4096x1 .f32) (r : Fin 4096) (e : Fin 64) :
    vmVec v m (ix2 r e) = vmB v m r e := by
  unfold vmVec vmB
  show shapeCast S4096x64 v shapeCasts_S1x1x4096x64_S4096x64 (ix2 r e)
    * broadcastTo S4096x64 (shapeCast S4096x1 m shapeCasts_S1x4096x1_S4096x1) broadcasts_S4096x1_S4096x64 (ix2 r e) = _
  rw [cast_blk, bcast_col, cast_mask]

/-- The zero accumulator at an index. -/
theorem pay2_apply (d e : Fin 64) : (k0_pay2 (F := Ideal)) (ix2 d e) = 0 := by
  unfold k0_pay2
  rw [shapeCast_self]
  exact Ideal.ofBits_zero_f32

/-- The copy out, at an index. -/
theorem pay1_apply (s : Vec Ideal S64x64 .f32) (u u' : Fin 1) (d e : Fin 64) :
    k0_pay1 s (ix4 u u' d e) = s (ix2 d e) := by
  unfold k0_pay1
  refine shapeCast_apply s _ _ _ ?_
  have hu : u.val = 0 := by omega
  have hu' : u'.val = 0 := by omega
  rw [Shape.rowMajor_val_four, Shape.rowMajor_val_two]
  show d.val * 64 + e.val = ((u.val * 1 + u'.val) * 64 + d.val) * 64 + e.val
  omega

/-- The body's arithmetic at entry (d, e): the accumulator there plus this half's share. -/
theorem pay3_apply (k v : Vec Ideal S1x1x4096x64 .f32) (m : Vec Ideal S1x4096x1 .f32) (s : Vec Ideal S64x64 .f32) (d e : Fin 64) :
    k0_pay3 k v m s (ix2 d e) = s (ix2 d e) + ∑ r : Fin 4096, kfB k m r d * vmB v m r e := by
  rw [pay3_eq]
  show s (ix2 d e) + matmul dot_S4096x64_S4096x64_S64x64_0_0_1_1_n_n none
      (truncf .bf16 (kfVec k m) bitsLt_bf16_f32) (truncf .bf16 (vmVec v m) bitsLt_bf16_f32)
      (constant (F := Ideal) S64x64 .f32 0x00000000#32) (ix2 d e) = _
  rw [matmul_rows]
  refine congrArg (s (ix2 d e) + ·) (Finset.sum_congr rfl fun r _ => ?_)
  show kfVec k m (ix2 r d) * vmVec v m (ix2 r e) = _
  rw [kfVec_apply, vmVec_apply]

/-! ## The blocks as rows of the arrays -/

/-- The index maps over the grid: point t = (b, h, half) row-major, so b = t / 24, h = t / 2 % 12, half = t % 2. -/
theorem idx_facts : ∀ t : Fin cfg0.N,
    win0_0.index t (0 : Fin 3) = t.val / 24 ∧ win0_0.index t (1 : Fin 3) = t.val % 2 ∧ win0_0.index t (2 : Fin 3) = 0
    ∧ win0_1.index t (0 : Fin 4) = t.val / 24 ∧ win0_1.index t (1 : Fin 4) = t.val / 2 % 12
      ∧ win0_1.index t (2 : Fin 4) = t.val % 2 ∧ win0_1.index t (3 : Fin 4) = 0
    ∧ win0_2.index t (0 : Fin 4) = t.val / 24 ∧ win0_2.index t (1 : Fin 4) = t.val / 2 % 12
      ∧ win0_2.index t (2 : Fin 4) = t.val % 2 ∧ win0_2.index t (3 : Fin 4) = 0
    ∧ win0_3.index t (0 : Fin 4) = t.val / 24 ∧ win0_3.index t (1 : Fin 4) = t.val / 2 % 12
      ∧ win0_3.index t (2 : Fin 4) = 0 ∧ win0_3.index t (3 : Fin 4) = 0 :=
  (by decide +kernel : ∀ t : Fin grid0.N, _)

/-- Row r of the K block at point t is row half·4096 + r of K[b, h]. -/
theorem kblk_apply (c : Dev nD) (t : Fin cfg0.N) (r : Fin 4096) (d : Fin 64) (b : Fin 4) (h : Fin 12) (n : Fin 8192)
    (hb : b.val = t.val / 24) (hh : h.val = t.val / 2 % 12) (hn : n.val = t.val % 2 * 4096 + r.val) :
    kblk V c t (ix4 (0 : Fin 1) (0 : Fin 1) r d) = Karr V c b h n d := by
  obtain ⟨-, -, -, e0, e1, e2, e3, -⟩ := idx_facts t
  unfold Karr
  show iblk0 V c 1 t _ = _
  unfold iblk0
  rw [View.read_apply]
  show V c main_arg1 _ = V c main_arg1 _
  congr 1
  funext a
  apply Fin.ext
  match a with
  | ⟨0, _⟩ => show win0_1.index t (0 : Fin 4) * 1 + 1 * 0 = b.val; rw [e0, hb]; omega
  | ⟨1, _⟩ => show win0_1.index t (1 : Fin 4) * 1 + 1 * 0 = h.val; rw [e1, hh]; omega
  | ⟨2, _⟩ => show win0_1.index t (2 : Fin 4) * 4096 + 1 * r.val = n.val; rw [e2, hn]; omega
  | ⟨3, _⟩ => show win0_1.index t (3 : Fin 4) * 64 + 1 * d.val = d.val; rw [e3]; omega

/-- Row r of the V block at point t is row half·4096 + r of V[b, h]. -/
theorem vblk_apply (c : Dev nD) (t : Fin cfg0.N) (r : Fin 4096) (e : Fin 64) (b : Fin 4) (h : Fin 12) (n : Fin 8192)
    (hb : b.val = t.val / 24) (hh : h.val = t.val / 2 % 12) (hn : n.val = t.val % 2 * 4096 + r.val) :
    vblk V c t (ix4 (0 : Fin 1) (0 : Fin 1) r e) = Varr V c b h n e := by
  obtain ⟨-, -, -, -, -, -, -, e0, e1, e2, e3, -⟩ := idx_facts t
  unfold Varr
  show iblk0 V c 2 t _ = _
  unfold iblk0
  rw [View.read_apply]
  show V c main_arg2 _ = V c main_arg2 _
  congr 1
  funext a
  apply Fin.ext
  match a with
  | ⟨0, _⟩ => show win0_2.index t (0 : Fin 4) * 1 + 1 * 0 = b.val; rw [e0, hb]; omega
  | ⟨1, _⟩ => show win0_2.index t (1 : Fin 4) * 1 + 1 * 0 = h.val; rw [e1, hh]; omega
  | ⟨2, _⟩ => show win0_2.index t (2 : Fin 4) * 4096 + 1 * r.val = n.val; rw [e2, hn]; omega
  | ⟨3, _⟩ => show win0_2.index t (3 : Fin 4) * 64 + 1 * e.val = e.val; rw [e3]; omega

/-- Row r of the mask block at point t is row half·4096 + r of the mask of batch b. -/
theorem mblk_apply (c : Dev nD) (t : Fin cfg0.N) (r : Fin 4096) (b : Fin 4) (n : Fin 8192)
    (hb : b.val = t.val / 24) (hn : n.val = t.val % 2 * 4096 + r.val) :
    mblk V c t (ix3 (0 : Fin 1) r (0 : Fin 1)) = Marr V c b n := by
  obtain ⟨e0, e1, e2, -⟩ := idx_facts t
  unfold Marr
  show iblk0 V c 0 t _ = _
  unfold iblk0
  rw [View.read_apply]
  show V c main_v0 _ = V c main_v0 _
  congr 1
  funext a
  apply Fin.ext
  match a with
  | ⟨0, _⟩ => show win0_0.index t (0 : Fin 3) * 1 + 1 * 0 = b.val; rw [e0, hb]; omega
  | ⟨1, _⟩ => show win0_0.index t (1 : Fin 3) * 4096 + 1 * r.val = n.val; rw [e1, hn]; omega
  | ⟨2, _⟩ => show win0_0.index t (2 : Fin 3) * 1 + 1 * 0 = 0; rw [e2]

/-! ## One half's share, from the blocks to the arrays -/

/-- A block's normalised row is the array's, where the block's row is row n of (b, h). -/
theorem kfB_eq (k : Vec Ideal S1x1x4096x64 .f32) (m : Vec Ideal S1x4096x1 .f32)
    (K : Fin 4 → Fin 12 → Fin 8192 → Fin 64 → EReal) (M : Fin 4 → Fin 8192 → EReal)
    (b : Fin 4) (h : Fin 12) (n : Fin 8192) (r : Fin 4096)
    (hk : ∀ d : Fin 64, k (ix4 (0 : Fin 1) (0 : Fin 1) r d) = K b h n d)
    (hm : m (ix3 (0 : Fin 1) r (0 : Fin 1)) = M b n) (d : Fin 64) :
    kfB k m r d = CosAttn.kf K M b h n d := by
  unfold kfB denB CosAttn.kf CosAttn.den
  have hs : (∑ d' : Fin 64, k (ix4 (0 : Fin 1) (0 : Fin 1) r d') * k (ix4 (0 : Fin 1) (0 : Fin 1) r d'))
      = ∑ d' : Fin 64, K b h n d' * K b h n d' := Finset.sum_congr rfl fun d' _ => by rw [hk d']
  rw [hs, hm, hk d]

/-- A block's masked row likewise. -/
theorem vmB_eq (v : Vec Ideal S1x1x4096x64 .f32) (m : Vec Ideal S1x4096x1 .f32)
    (W : Fin 4 → Fin 12 → Fin 8192 → Fin 64 → EReal) (M : Fin 4 → Fin 8192 → EReal)
    (b : Fin 4) (h : Fin 12) (n : Fin 8192) (r : Fin 4096) (e : Fin 64)
    (hv : v (ix4 (0 : Fin 1) (0 : Fin 1) r e) = W b h n e)
    (hm : m (ix3 (0 : Fin 1) r (0 : Fin 1)) = M b n) :
    vmB v m r e = CosAttn.vm W M b h n e := by
  unfold vmB CosAttn.vm
  rw [hv, hm]

/-- The product of the blocks at point t, summed over their 4096 rows, is half t % 2's share of Kᵀ·V of (b, h). -/
theorem half_sum (c : Dev nD) (t : Fin cfg0.N) (j : Fin 2) (b : Fin 4) (h : Fin 12)
    (hj : j.val = t.val % 2) (hb : b.val = t.val / 24) (hh : h.val = t.val / 2 % 12) (d e : Fin 64) :
    ∑ r : Fin 4096, kfB (kblk V c t) (mblk V c t) r d * vmB (vblk V c t) (mblk V c t) r e
      = CosAttn.ktvHalf (Karr V c) (Varr V c) (Marr V c) j b h d e := by
  unfold CosAttn.ktvHalf
  refine Finset.sum_congr rfl fun r _ => ?_
  have hn : (CosAttn.rowOf j r).val = t.val % 2 * 4096 + r.val := by
    show j.val * 4096 + r.val = _; rw [hj]
  rw [kfB_eq (kblk V c t) (mblk V c t) (Karr V c) (Marr V c) b h (CosAttn.rowOf j r) r
        (fun d' => kblk_apply V c t r d' b h (CosAttn.rowOf j r) hb hh hn)
        (mblk_apply V c t r b (CosAttn.rowOf j r) hb hn) d,
      vmB_eq (vblk V c t) (mblk V c t) (Varr V c) (Marr V c) b h (CosAttn.rowOf j r) r e
        (vblk_apply V c t r e b h (CosAttn.rowOf j r) hb hh hn)
        (mblk_apply V c t r b (CosAttn.rowOf j r) hb hn)]

/-! ## The accumulator after a second half -/

/-- After the second half of the pair (b, h) the accumulator holds Kᵀ·V of (b, h). -/
theorem acc_second (c : Dev nD) (t : Fin cfg0.N) (ht : t.val % 2 = 1) (b : Fin 4) (h : Fin 12)
    (hb : b.val = t.val / 24) (hh : h.val = t.val / 2 % 12) (d e : Fin 64) :
    acc V c t.val t.isLt (ix2 d e) = CosAttn.ktv (Karr V c) (Varr V c) (Marr V c) b h d e := by
  have hlt : t.val - 1 < cfg0.N := Nat.lt_of_le_of_lt (Nat.sub_le _ _) t.isLt
  have h1 := acc_odd V c t ht
  have h0 := acc_even V c ⟨t.val - 1, hlt⟩ (by show (t.val - 1) % 2 = 0; omega)
  rw [h1, pay3_apply]
  rw [show acc V c (t.val - 1) hlt = _ from h0, pay3_apply, pay2_apply]
  rw [CosAttn.ktv_eq_halves,
    half_sum V c ⟨t.val - 1, hlt⟩ 0 b h (by show 0 = (t.val - 1) % 2; omega) (by show b.val = (t.val - 1) / 24; omega)
      (by show h.val = (t.val - 1) / 2 % 12; omega) d e,
    half_sum V c t 1 b h (by show 1 = t.val % 2; omega) hb hh d e]

/-! ## From the write-backs to the array -/

/-- The result array the call leaves: Kᵀ·V, entry by entry. -/
def ktvArr (c : Dev nD) : S4x12x64x64.Idx → EReal := fun i =>
  CosAttn.ktv (Karr V c) (Varr V c) (Marr V c) ⟨(i 0).val, (i 0).isLt⟩ ⟨(i 1).val, (i 1).isLt⟩
    ⟨(i 2).val, (i 2).isLt⟩ ⟨(i 3).val, (i 3).isLt⟩

/-- What a second-half point writes back, at a block index: the entry of Kᵀ·V under it. -/
theorem flushed_apply (c : Dev nD) (t : Fin cfg0.N) (ht : t.val % 2 = 1) (y : S1x1x64x64.Idx) (i : S4x12x64x64.Idx)
    (h0 : (i 0).val = t.val / 24) (h1 : (i 1).val = t.val / 2 % 12)
    (h2 : (i 2).val = (y 2).val) (h3 : (i 3).val = (y 3).val) :
    k0_pay1 (acc V c t.val t.isLt) y = ktvArr V c i := by
  obtain ⟨u, u', d, e, rfl⟩ : ∃ (u u' : Fin 1) (d e : Fin 64), y = ix4 u u' d e := ⟨y 0, y 1, y 2, y 3, eq_ix4 y⟩
  have hd : (⟨(i 2).val, (i 2).isLt⟩ : Fin 64) = d := Fin.ext h2
  have he : (⟨(i 3).val, (i 3).isLt⟩ : Fin 64) = e := Fin.ext h3
  rw [pay1_apply, acc_second V c t ht ⟨(i 0).val, (i 0).isLt⟩ ⟨(i 1).val, (i 1).isLt⟩ h0 h1 d e]
  unfold ktvArr
  rw [hd, he]

/-- A second-half point writes back its block of that array. -/
theorem flushed_eq (c : Dev nD) (t : Fin cfg0.N) (hf : (cfg0.win 3).flush t = true) :
    (dat0 V c).flushed 3 t = ((cfg0.win 3).blk t).view.read (Elt Ideal) (ktvArr V c) := by
  have ht : t.val % 2 = 1 := (flush0_3 t).mp hf
  obtain ⟨-, -, -, -, -, -, -, -, -, -, -, e0, e1, e2, e3⟩ := idx_facts t
  show (cfg0.win 3).cut (grid0.coords t) ((dat0 V c).after 3 t) = _
  rw [after0_3]
  funext y
  rw [View.read_apply]
  have y0 : (y 0).val < 1 := (y 0).isLt
  have y1 : (y 1).val < 1 := (y 1).isLt
  refine flushed_apply V c t ht y _ ?_ ?_ ?_ ?_
  · show win0_3.index t (0 : Fin 4) * 1 + 1 * (y 0).val = t.val / 24; rw [e0]; omega
  · show win0_3.index t (1 : Fin 4) * 1 + 1 * (y 1).val = t.val / 2 % 12; rw [e1]; omega
  · show win0_3.index t (2 : Fin 4) * 64 + 1 * (y 2).val = (y 2).val; rw [e2]; omega
  · show win0_3.index t (3 : Fin 4) * 64 + 1 * (y 3).val = (y 3).val; rw [e3]; omega

/-- Every entry (b, h, d, e) is under the block of the second half of the pair (b, h). -/
theorem cover (i : S4x12x64x64.Idx) :
    ∃ t : Fin cfg0.N, (cfg0.win 3).flush t = true ∧ i ∈ ((cfg0.win 3).blk t).view.set := by
  have hN : cfg0.N = 96 := N_0
  have h0 : (i 0).val < 4 := (i 0).isLt
  have h1 : (i 1).val < 12 := (i 1).isLt
  have h2 : (i 2).val < 64 := (i 2).isLt
  have h3 : (i 3).val < 64 := (i 3).isLt
  have hlt : ((i 0).val * 12 + (i 1).val) * 2 + 1 < cfg0.N := by rw [hN]; omega
  obtain ⟨-, -, -, -, -, -, -, -, -, -, -, e0, e1, e2, e3⟩ := idx_facts ⟨((i 0).val * 12 + (i 1).val) * 2 + 1, hlt⟩
  refine ⟨⟨((i 0).val * 12 + (i 1).val) * 2 + 1, hlt⟩, (flush0_3 _).mpr (by show (((i 0).val * 12 + (i 1).val) * 2 + 1) % 2 = 1; omega), ?_⟩
  show i ∈ ((View.whole main_v1).slice (win0_3.rect ⟨((i 0).val * 12 + (i 1).val) * 2 + 1, hlt⟩)).set
  rw [View.set_slice_whole, Rect.mem_set_unit]
  intro a
  match a with
  | ⟨0, _⟩ =>
    show win0_3.index ⟨((i 0).val * 12 + (i 1).val) * 2 + 1, hlt⟩ (0 : Fin 4) * 1 ≤ (i 0).val
      ∧ (i 0).val < win0_3.index ⟨((i 0).val * 12 + (i 1).val) * 2 + 1, hlt⟩ (0 : Fin 4) * 1 + 1
    rw [e0]; show (((i 0).val * 12 + (i 1).val) * 2 + 1) / 24 * 1 ≤ (i 0).val ∧ (i 0).val < (((i 0).val * 12 + (i 1).val) * 2 + 1) / 24 * 1 + 1; omega
  | ⟨1, _⟩ =>
    show win0_3.index ⟨((i 0).val * 12 + (i 1).val) * 2 + 1, hlt⟩ (1 : Fin 4) * 1 ≤ (i 1).val
      ∧ (i 1).val < win0_3.index ⟨((i 0).val * 12 + (i 1).val) * 2 + 1, hlt⟩ (1 : Fin 4) * 1 + 1
    rw [e1]; show (((i 0).val * 12 + (i 1).val) * 2 + 1) / 2 % 12 * 1 ≤ (i 1).val ∧ (i 1).val < (((i 0).val * 12 + (i 1).val) * 2 + 1) / 2 % 12 * 1 + 1; omega
  | ⟨2, _⟩ =>
    show win0_3.index ⟨((i 0).val * 12 + (i 1).val) * 2 + 1, hlt⟩ (2 : Fin 4) * 64 ≤ (i 2).val
      ∧ (i 2).val < win0_3.index ⟨((i 0).val * 12 + (i 1).val) * 2 + 1, hlt⟩ (2 : Fin 4) * 64 + 64
    rw [e2]; omega
  | ⟨3, _⟩ =>
    show win0_3.index ⟨((i 0).val * 12 + (i 1).val) * 2 + 1, hlt⟩ (3 : Fin 4) * 64 ≤ (i 3).val
      ∧ (i 3).val < win0_3.index ⟨((i 0).val * 12 + (i 1).val) * 2 + 1, hlt⟩ (3 : Fin 4) * 64 + 64
    rw [e3]; omega

/-- The first call's result array after all 96 points: the specification's Kᵀ·V. -/
theorem ktv_final (c : Dev nD) (b : Fin 4) (h : Fin 12) (d e : Fin 64) :
    ((dat0 (F := Ideal) V c).arrAt 3 cfg0.N : S4x12x64x64.Idx → EReal) (ix4 b h d e)
      = CosAttn.ktv (Karr V c) (Varr V c) (Marr V c) b h d e := by
  have hfin := (dat0 (F := Ideal) V c).arrAt_eq_of_cover 3 (ktvArr V c) (fun t hf => flushed_eq V c t hf) cover
  exact (congrFun hfin (ix4 b h d e)).trans rfl

end Cert.KernelIdeal.KtvValue

end
-- ==== Proof.OutValue.lean ====
/-
  What the second call leaves in its result array, over the extended reals: entry (b, h, n, e) is
  Σ_d qf[b,h,n,d] · M[b,h,d,e], with qf the normalised, scaled Q and M the [4, 12, 64, 64] array the call was
  entered with in the first call's result buffer.
-/
import proofs.«153352_j10582799417399_1_alg».proof.Proof.OutData
import proofs.«153352_j10582799417399_1_alg».proof.Proof.CosAttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.OutValue

open Cert.KernelIdeal Cert.KernelIdeal.Gen
open Idealize.ShloMosaic Idealize.ShloMosaic.TcCoe Idealize.ShloMosaic.ValueIdx
open Idealize.SL.Sem
open Idealize.ShloMosaic.Pipeline (Dat)

/-! ## The product's operand coordinates -/

theorem lhs_prod_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_prod_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs_prod_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs_prod_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The product into zeros at (n, e): the sum over the 64 lanes. -/
theorem prod_apply (A : FVec Ideal S8192x64 .bf16) (B : FVec Ideal S64x64 .bf16) (n : Fin 8192) (e : Fin 64) :
    matmul dot_S8192x64_S64x64_S8192x64_1_0_0_1_n_n none A B (constant (F := Ideal) S8192x64 .f32 0x00000000#32) (ix2 n e)
      = ∑ d : Fin 64, A (ix2 n d) * B (ix2 d e) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 n e) ((contrEquiv1 dot_S8192x64_S64x64_S8192x64_1_0_0_1_n_n 64 rfl rfl).symm k) = ix2 n k := funext fun a => Fin.ext (by
    match a with
    | ⟨0, _⟩ => exact lhs_prod_0 _ _
    | ⟨1, _⟩ => exact (lhs_prod_1 _ _).trans hk)
  have er : dot_S8192x64_S64x64_S8192x64_1_0_0_1_n_n.rhsIdx (ix2 n e) ((contrEquiv1 dot_S8192x64_S64x64_S8192x64_1_0_0_1_n_n 64 rfl rfl).symm k) = ix2 k e := funext fun a => Fin.ext (by
    match a with
    | ⟨0, _⟩ => exact (rhs_prod_0 _ _).trans hk
    | ⟨1, _⟩ => exact rhs_prod_1 _ _)
  rw [el, er]

/-! ## The layout operations of the body, read at an index -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The lane sum of a `[8192, 64]` vector at row `n`: the sum over the row's 64 entries. -/
theorem rowsum_apply (X : FVec Ideal S8192x64 .f32) (hφ : FKind.Formats .f32)
    (hacc : (0x00000000#32 : BitVec 32) = 0x00000000#32) (n : Fin 8192) :
    multiReduction (F := Ideal) .add [1] S8192 X 0x00000000#32 reduces_S8192x64_S8192 hφ hacc (ix1 n)
      = ∑ d : Fin 64, X (ix2 n d) := by
  refine (Ideal.multiReduction_add_single X 0x00000000#32 reduces_S8192x64_S8192 hφ hacc (ix1 n)).trans ?_
  show ∑ d : Fin 64, X (reduces_S8192x64_S8192.lift (ix1 n) d) = _
  refine Finset.sum_congr rfl fun d _ => congrArg X ?_
  funext a
  apply Fin.ext
  match a with
  | ⟨0, _⟩ => rfl
  | ⟨1, _⟩ => rfl

/-- A square root at an index is the element's. -/
theorem sqrt_apply {s : Shape} {φ : FTy} (a : FVec Ideal s φ) (i : s.Idx) : Idealize.ShloMosaic.sqrt a i = Ideal.sqrt (a i) := rfl

/-- The body's result at `(0, 0, n, e)`, over any Q block and any matrix block: the normalised, scaled row `n`
    of the Q block times column `e` of the matrix block. -/
theorem pay_apply (x0 : Vec Ideal S1x1x8192x64 .f32) (x1 : Vec Ideal S1x1x64x64 .f32) (n : Fin 8192) (e : Fin 64) :
    k1_pay1 (F := Ideal) x0 x1 (ix4 (0 : Fin 1) (0 : Fin 1) n e)
      = ∑ d : Fin 64, Ideal.div (x0 (ix4 (0 : Fin 1) (0 : Fin 1) n d))
          (max (Ideal.sqrt (∑ d' : Fin 64, x0 (ix4 (0 : Fin 1) (0 : Fin 1) n d') * x0 (ix4 (0 : Fin 1) (0 : Fin 1) n d'))) CosAttn.eps)
          * CosAttn.scale * x1 (ix4 (0 : Fin 1) (0 : Fin 1) d e) := by
  unfold k1_pay1
  dsimp only
  rw [shapeCast_ab_11ab_apply, prod_apply]
  refine Finset.sum_congr rfl fun d _ => ?_
  simp only [truncf_apply, mulf_apply, divf_apply, broadcast_apply]
  rw [shapeCast_11ab_ab_apply, shapeCast_11ab_ab_apply, broadcastTo_a1_ab_apply]
  simp only [maximumf_apply, broadcast_apply, sqrt_apply]
  rw [shapeCast_a_a1_apply, rowsum_apply]
  simp only [mulf_apply, shapeCast_11ab_ab_apply]
  rfl

-- the TensorCore's buffer contents when the call is entered, at the ideal instance
variable (V : (c : Dev nD) → (b : Ref sig .tc) → Buf (Elt Ideal) ((c : Thread nD τ).loc b))

open Cert.KernelIdeal.Out

/-- The arrays the second call reads, by coordinates. -/
def Qarr (c : Dev nD) : Fin 4 → Fin 12 → Fin 8192 → Fin 64 → EReal :=
  fun b h n d => (V c main_arg0 : S4x12x8192x64.Idx → EReal) (ix4 b h n d)
def Mxarr (c : Dev nD) : Fin 4 → Fin 12 → Fin 64 → Fin 64 → EReal :=
  fun b h d e => (V c main_v1 : S4x12x64x64.Idx → EReal) (ix4 b h d e)

/-! ## From blocks to the array -/

/-- The three windows' index maps over the 48 points: point `t = b·12 + h` reads and writes block `(b, h, 0, 0)`. -/
theorem idx_facts : ∀ t : Fin cfg1.N,
    (win1_0.index t (0 : Fin 4) = t.val / 12 ∧ win1_0.index t (1 : Fin 4) = t.val % 12
      ∧ win1_0.index t (2 : Fin 4) = 0 ∧ win1_0.index t (3 : Fin 4) = 0)
    ∧ (win1_1.index t (0 : Fin 4) = t.val / 12 ∧ win1_1.index t (1 : Fin 4) = t.val % 12
      ∧ win1_1.index t (2 : Fin 4) = 0 ∧ win1_1.index t (3 : Fin 4) = 0)
    ∧ (win1_2.index t (0 : Fin 4) = t.val / 12 ∧ win1_2.index t (1 : Fin 4) = t.val % 12
      ∧ win1_2.index t (2 : Fin 4) = 0 ∧ win1_2.index t (3 : Fin 4) = 0) :=
  (by decide +kernel : ∀ t : Fin grid1.N, _)

/-- Q's block at point `t`, at `(0, 0, n, d)`, is the array at `(t / 12, t % 12, n, d)`. -/
theorem qblk_apply (c : Dev nD) (t : Fin cfg1.N) (b : Fin 4) (h : Fin 12) (hb : b.val = t.val / 12) (hh : h.val = t.val % 12)
    (n : Fin 8192) (d : Fin 64) :
    qblk V c t (ix4 (0 : Fin 1) (0 : Fin 1) n d) = Qarr V c b h n d := by
  obtain ⟨⟨e0, e1, e2, e3⟩, -, -⟩ := idx_facts t
  unfold Qarr
  show ((cfg1.win 0).blk t).view.read (Elt Ideal) (V c (Pipeline.arrRef spec1 0)) (ix4 (0 : Fin 1) (0 : Fin 1) n d) = _
  rw [View.read_apply]
  show V c main_arg0 _ = V c main_arg0 _
  congr 1
  funext a
  apply Fin.ext
  match a with
  | ⟨0, _⟩ => show win1_0.index t (0 : Fin 4) * 1 + 1 * 0 = b.val; omega
  | ⟨1, _⟩ => show win1_0.index t (1 : Fin 4) * 1 + 1 * 0 = h.val; omega
  | ⟨2, _⟩ => show win1_0.index t (2 : Fin 4) * 8192 + 1 * n.val = n.val; omega
  | ⟨3, _⟩ => show win1_0.index t (3 : Fin 4) * 64 + 1 * d.val = d.val; omega

/-- The matrix's block at point `t`, at `(0, 0, d, e)`, is the array at `(t / 12, t % 12, d, e)`. -/
theorem mxblk_apply (c : Dev nD) (t : Fin cfg1.N) (b : Fin 4) (h : Fin 12) (hb : b.val = t.val / 12) (hh : h.val = t.val % 12)
    (d e : Fin 64) :
    mxblk V c t (ix4 (0 : Fin 1) (0 : Fin 1) d e) = Mxarr V c b h d e := by
  obtain ⟨-, ⟨e0, e1, e2, e3⟩, -⟩ := idx_facts t
  unfold Mxarr
  show ((cfg1.win 1).blk t).view.read (Elt Ideal) (V c (Pipeline.arrRef spec1 1)) (ix4 (0 : Fin 1) (0 : Fin 1) d e) = _
  rw [View.read_apply]
  show V c main_v1 _ = V c main_v1 _
  congr 1
  funext a
  apply Fin.ext
  match a with
  | ⟨0, _⟩ => show win1_1.index t (0 : Fin 4) * 1 + 1 * 0 = b.val; omega
  | ⟨1, _⟩ => show win1_1.index t (1 : Fin 4) * 1 + 1 * 0 = h.val; omega
  | ⟨2, _⟩ => show win1_1.index t (2 : Fin 4) * 64 + 1 * d.val = d.val; omega
  | ⟨3, _⟩ => show win1_1.index t (3 : Fin 4) * 64 + 1 * e.val = e.val; omega
/-- What the result array holds in the end, by coordinates … -/
def outAt (c : Dev nD) (b : Fin 4) (h : Fin 12) (n : Fin 8192) (e : Fin 64) : EReal :=
  ∑ d : Fin 64, CosAttn.qf (Qarr V c) b h n d * Mxarr V c b h d e

/-- … and as contents of the array. -/
def outArr (c : Dev nD) : S4x12x8192x64.Idx → EReal := fun i => outAt V c (i 0) (i 1) (i 2) (i 3)

/-- What point `t` writes back is block `t` of `outArr`: the body's result over Q's block and the matrix's block at `t`,
    each block read as rows of its array. -/
theorem flushed_eq (c : Dev nD) (t : Fin cfg1.N) :
    (dat1 (F := Ideal) V c).flushed 2 t = ((cfg1.win 2).blk t).view.read (Elt Ideal) (outArr V c) := by
  show (cfg1.win 2).cut (grid1.coords t) ((dat1 (F := Ideal) V c).after 2 t) = _
  rw [after1_2]
  obtain ⟨-, -, ⟨e0, e1, e2, e3⟩⟩ := idx_facts t
  have hN : cfg1.N = 48 := N_1
  have ht : t.val < 48 := t.isLt.trans_eq hN
  refine funext fun (y : S1x1x8192x64.Idx) => ?_
  obtain ⟨p, q, n, e, rfl⟩ : ∃ (p q : Fin 1) (n : Fin 8192) (e : Fin 64), y = ix4 p q n e :=
    ⟨y 0, y 1, y 2, y 3, eq_ix4 y⟩
  obtain rfl : p = 0 := Subsingleton.elim _ _
  obtain rfl : q = 0 := Subsingleton.elim _ _
  show k1_pay1 (qblk V c t) (mxblk V c t) (ix4 (0 : Fin 1) (0 : Fin 1) n e)
    = outArr V c (((cfg1.win 2).blk t).view.emb (ix4 (0 : Fin 1) (0 : Fin 1) n e))
  have hemb : ((cfg1.win 2).blk t).view.emb (ix4 (0 : Fin 1) (0 : Fin 1) n e)
      = ix4 (⟨t.val / 12, by omega⟩ : Fin 4) (⟨t.val % 12, by omega⟩ : Fin 12) n e := by
    funext a
    apply Fin.ext
    match a with
    | ⟨0, _⟩ => show win1_2.index t (0 : Fin 4) * 1 + 1 * 0 = t.val / 12; omega
    | ⟨1, _⟩ => show win1_2.index t (1 : Fin 4) * 1 + 1 * 0 = t.val % 12; omega
    | ⟨2, _⟩ => show win1_2.index t (2 : Fin 4) * 8192 + 1 * n.val = n.val; omega
    | ⟨3, _⟩ => show win1_2.index t (3 : Fin 4) * 64 + 1 * e.val = e.val; omega
  rw [hemb, pay_apply]
  simp only [qblk_apply V c t ⟨t.val / 12, by omega⟩ ⟨t.val % 12, by omega⟩ rfl rfl,
    mxblk_apply V c t ⟨t.val / 12, by omega⟩ ⟨t.val % 12, by omega⟩ rfl rfl]
  rfl

/-- Every index of the result array is in the block of the point its first two coordinates name. -/
theorem cover (i : S4x12x8192x64.Idx) :
    ∃ t : Fin cfg1.N, (cfg1.win 2).flush t = true ∧ i ∈ ((cfg1.win 2).blk t).view.set := by
  have h0 : (i 0).val < 4 := (i 0).isLt
  have h1 : (i 1).val < 12 := (i 1).isLt
  have h2 : (i 2).val < 8192 := (i 2).isLt
  have h3 : (i 3).val < 64 := (i 3).isLt
  have hN : cfg1.N = 48 := N_1
  obtain ⟨t, tv⟩ : ∃ t : Fin cfg1.N, t.val = (i 0).val * 12 + (i 1).val :=
    ⟨⟨(i 0).val * 12 + (i 1).val, (by omega : (i 0).val * 12 + (i 1).val < 48).trans_eq hN.symm⟩, rfl⟩
  refine ⟨t, flush1_2 t, ?_⟩
  obtain ⟨-, -, ⟨e0, e1, e2, e3⟩⟩ := idx_facts t
  show i ∈ ((View.whole main_v2).slice (win1_2.rect t)).set
  rw [View.set_slice_whole, Rect.mem_set_unit]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 1 ≤ (i 1).val ∧ (i 1).val < win1_2.index t (1 : Fin 4) * 1 + 1; omega
  | ⟨2, _⟩ => show win1_2.index t (2 : Fin 4) * 8192 ≤ (i 2).val ∧ (i 2).val < win1_2.index t (2 : Fin 4) * 8192 + 8192; omega
  | ⟨3, _⟩ => show win1_2.index t (3 : Fin 4) * 64 ≤ (i 3).val ∧ (i 3).val < win1_2.index t (3 : Fin 4) * 64 + 64; omega

/-- The second call's result array after all 48 points. -/
theorem out_final (c : Dev nD) (b : Fin 4) (h : Fin 12) (n : Fin 8192) (e : Fin 64) :
    ((dat1 (F := Ideal) V c).arrAt 2 cfg1.N : S4x12x8192x64.Idx → EReal) (ix4 b h n e)
      = ∑ d : Fin 64, CosAttn.qf (Qarr V c) b h n d * Mxarr V c b h d e := by
  have hfin : (dat1 (F := Ideal) V c).arrAt 2 cfg1.N = outArr V c :=
    (dat1 (F := Ideal) V c).arrAt_eq_of_cover 2 (outArr V c) (fun t _ => flushed_eq V c t) cover
  exact congrFun hfin (ix4 b h n e)

end Cert.KernelIdeal.OutValue

end
-- ==== Proof.RefRead.lean ====
/-
  The reference program's value, read back one operation at a time: this module gathers the run of the
  reference and its read-at-an-index lemmas, so that the modules stating what the reference computes
  import a single name.
-/
import proofs.«153352_j10582799417399_1_alg».proof.Proof.Gen.ReferenceIdeal.Run
import proofs.«153352_j10582799417399_1_alg».proof.Proof.Gen.ReferenceIdeal.Read
-- ==== Proof.RefIsSpec.lean ====
/-
  The reference program's result, read one operation at a time at the ideal instance, is the specification:
  entry (b, h, n, e) of its last `dot_general` is Σ_d qf[b,h,n,d] · ktv[b,h,d,e] of the argument arrays.
-/
import proofs.«153352_j10582799417399_1_alg».proof.Proof.RefRead
import proofs.«153352_j10582799417399_1_alg».proof.Proof.CosAttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefSpec

open Cert.ReferenceIdeal Cert.ReferenceIdeal.Gen Cert.ReferenceIdeal.Read
open Idealize.ShloMosaic Idealize.ShloMosaic.TcCoe Idealize.ShloMosaic.ValueIdx
open Idealize.SL.Sem

/-- The argument arrays by coordinates. -/
def arr4 (x : (⟨S4x12x8192x64, .f32⟩ : BufTy).Contents (Elt Ideal)) : Fin 4 → Fin 12 → Fin 8192 → Fin 64 → EReal :=
  fun b h n d => (x : S4x12x8192x64.Idx → EReal) (ix4 b h n d)
def arr2 (x : (⟨S4x8192, .f32⟩ : BufTy).Contents (Elt Ideal)) : Fin 4 → Fin 8192 → EReal :=
  fun b n => (x : S4x8192.Idx → EReal) (ix2 b n)

/-- The term the reference's run ends at (the generated run's post, with the arguments named), at any float
    instance. -/
abbrev refTerm {F : FTy → Type} [FloatOps F] (x0 x1 x2 : (⟨S4x12x8192x64, .f32⟩ : BufTy).Contents (Elt F))
    (x3 : (⟨S4x8192, .f32⟩ : BufTy).Contents (Elt F)) : (⟨S4x12x8192x64, .f32⟩ : BufTy).Contents (Elt F) :=
  Host.dotGeneral dot_S4x12x8192x64_S4x12x64x64_S4x12x8192x64_3_2_2_3_01_01 none (mulf (Host.divf x0 (broadcastInDim S4x12x8192x64 ![0, 1, 2, 3] bcast_S4x12x8192x1_S4x12x8192x64_0_1_2_3 (maximumf (Host.sqrt (broadcastInDim S4x12x8192x1 ![0, 1, 2] bcast_S4x12x8192_S4x12x8192x1_0_1_2 (Host.reduceAdd (mulf x0 x0) (constant S_ .f32 0x00000000#32) reducesTo_S4x12x8192x64_S4x12x8192_d3 h_S_))) (broadcastInDim S4x12x8192x1 ![] bcast_S_S4x12x8192x1 (constant S_ .f32 0x2B8CBCCC#32))))) (broadcastInDim S4x12x8192x64 ![] bcast_S_S4x12x8192x64 (constant S_ .f32 0x3DD744FD#32))) (Host.dotGeneral dot_S4x12x8192x64_S4x12x8192x64_S4x12x64x64_2_2_3_3_01_01 none (mulf (mulf (Host.divf x1 (broadcastInDim S4x12x8192x64 ![0, 1, 2, 3] bcast_S4x12x8192x1_S4x12x8192x64_0_1_2_3 (maximumf (Host.sqrt (broadcastInDim S4x12x8192x1 ![0, 1, 2] bcast_S4x12x8192_S4x12x8192x1_0_1_2 (Host.reduceAdd (mulf x1 x1) (constant S_ .f32 0x00000000#32) reducesTo_S4x12x8192x64_S4x12x8192_d3 h_S_))) (broadcastInDim S4x12x8192x1 ![] bcast_S_S4x12x8192x1 (constant S_ .f32 0x2B8CBCCC#32))))) (broadcastInDim S4x12x8192x64 ![0, 1, 2, 3] bcast_S4x1x8192x1_S4x12x8192x64_0_1_2_3 (broadcastInDim S4x1x8192x1 ![0, 2] bcast_S4x8192_S4x1x8192x1_0_2 x3))) (broadcastInDim S4x12x8192x64 ![] bcast_S_S4x12x8192x64 (constant S_ .f32 0x3DD744FD#32))) (mulf x2 (broadcastInDim S4x12x8192x64 ![0, 1, 2, 3] bcast_S4x1x8192x1_S4x12x8192x64_0_1_2_3 (broadcastInDim S4x1x8192x1 ![0, 2] bcast_S4x8192_S4x1x8192x1_0_2 x3))))

/-! ### The composed index maps of the read lemmas, at coordinates -/

theorem lidx20_ix (b : Fin 4) (h : Fin 12) (n : Fin 8192) (e k : Fin 64) :
    lidx_main_v20 (ix4 b h n e) k = ix4 b h n k :=
  funext fun a => Fin.ext (by match a with | ⟨0, _⟩ => rfl | ⟨1, _⟩ => rfl | ⟨2, _⟩ => rfl | ⟨3, _⟩ => rfl)

theorem ridx20_ix (b : Fin 4) (h : Fin 12) (n : Fin 8192) (e k : Fin 64) :
    ridx_main_v20 (ix4 b h n e) k = ix4 b h k e :=
  funext fun a => Fin.ext (by match a with | ⟨0, _⟩ => rfl | ⟨1, _⟩ => rfl | ⟨2, _⟩ => rfl | ⟨3, _⟩ => rfl)

theorem lidx19_ix (b : Fin 4) (h : Fin 12) (d e : Fin 64) (k : Fin 8192) :
    lidx_main_v19 (ix4 b h d e) k = ix4 b h k d :=
  funext fun a => Fin.ext (by match a with | ⟨0, _⟩ => rfl | ⟨1, _⟩ => rfl | ⟨2, _⟩ => rfl | ⟨3, _⟩ => rfl)

theorem ridx19_ix (b : Fin 4) (h : Fin 12) (d e : Fin 64) (k : Fin 8192) :
    ridx_main_v19 (ix4 b h d e) k = ix4 b h k e :=
  funext fun a => Fin.ext (by match a with | ⟨0, _⟩ => rfl | ⟨1, _⟩ => rfl | ⟨2, _⟩ => rfl | ⟨3, _⟩ => rfl)

/-- The keepdims column read from a full index: the last coordinate becomes the only one of its axis. -/
theorem idx4_ix (b : Fin 4) (h : Fin 12) (n : Fin 8192) (d : Fin 64) :
    idx_main_v4 (ix4 b h n d) = ix4 b h n (0 : Fin 1) :=
  funext fun a => Fin.ext (by match a with | ⟨0, _⟩ => rfl | ⟨1, _⟩ => rfl | ⟨2, _⟩ => rfl | ⟨3, _⟩ => rfl)

theorem idx11_ix (b : Fin 4) (h : Fin 12) (n : Fin 8192) (d : Fin 64) :
    idx_main_v11 (ix4 b h n d) = ix4 b h n (0 : Fin 1) :=
  funext fun a => Fin.ext (by match a with | ⟨0, _⟩ => rfl | ⟨1, _⟩ => rfl | ⟨2, _⟩ => rfl | ⟨3, _⟩ => rfl)

theorem idx_call0_v2_ix (b : Fin 4) (h : Fin 12) (n : Fin 8192) (z : Fin 1) :
    idx_main_call0_v2 (ix4 b h n z) = ix3 b h n :=
  funext fun a => Fin.ext (by match a with | ⟨0, _⟩ => rfl | ⟨1, _⟩ => rfl | ⟨2, _⟩ => rfl)

theorem idx_call1_v2_ix (b : Fin 4) (h : Fin 12) (n : Fin 8192) (z : Fin 1) :
    idx_main_call1_v2 (ix4 b h n z) = ix3 b h n :=
  funext fun a => Fin.ext (by match a with | ⟨0, _⟩ => rfl | ⟨1, _⟩ => rfl | ⟨2, _⟩ => rfl)

theorem idx_call0_v1_ix (b : Fin 4) (h : Fin 12) (n : Fin 8192) (k : Fin 64) :
    idx_main_call0_v1 (ix3 b h n) k = ix4 b h n k :=
  funext fun a => Fin.ext (by match a with | ⟨0, _⟩ => rfl | ⟨1, _⟩ => rfl | ⟨2, _⟩ => rfl | ⟨3, _⟩ => rfl)

theorem idx_call1_v1_ix (b : Fin 4) (h : Fin 12) (n : Fin 8192) (k : Fin 64) :
    idx_main_call1_v1 (ix3 b h n) k = ix4 b h n k :=
  funext fun a => Fin.ext (by match a with | ⟨0, _⟩ => rfl | ⟨1, _⟩ => rfl | ⟨2, _⟩ => rfl | ⟨3, _⟩ => rfl)

/-- The mask read from a full index: only the batch and the row survive the two broadcasts. -/
theorem idx13_ix (b : Fin 4) (h : Fin 12) (n : Fin 8192) (d : Fin 64) :
    idx_main_v0 (idx_main_v13 (ix4 b h n d)) = ix2 b n :=
  funext fun a => Fin.ext (by match a with | ⟨0, _⟩ => rfl | ⟨1, _⟩ => rfl)

theorem idx17_ix (b : Fin 4) (h : Fin 12) (n : Fin 8192) (d : Fin 64) :
    idx_main_v0 (idx_main_v17 (ix4 b h n d)) = ix2 b n :=
  funext fun a => Fin.ext (by match a with | ⟨0, _⟩ => rfl | ⟨1, _⟩ => rfl)

/-! ### The stages at coordinates -/

/-- The clamped norm of row `n` of the first argument: zero plus the sum of squares, its root, the larger of that and the clamp. -/
theorem den0_read (x : (⟨S4x12x8192x64, .f32⟩ : BufTy).Contents (Elt Ideal)) (b : Fin 4) (h : Fin 12) (n : Fin 8192) :
    val_main_v3 (F := Ideal) x (ix4 b h n (0 : Fin 1)) = CosAttn.den (arr4 x) b h n := by
  rw [val_main_v3_apply, val_main_v1_apply, val_main_call0_v2_apply, val_main_call0_v1_apply, val_main_v2_apply,
    val_main_cst_apply, val_main_call0_cst_apply]
  simp only [idx_call0_v2_ix, idx_call0_v1_ix, val_main_call0_v0_apply, Ideal.maximumf_def, Ideal.hostUnary_sqrt_def,
    Ideal.mulf_def, Ideal.ofBits_def, Ideal.ofBits_zero_f32, zero_add]
  rfl

/-- The same for the second argument (the second call of the norm). -/
theorem den1_read (x : (⟨S4x12x8192x64, .f32⟩ : BufTy).Contents (Elt Ideal)) (b : Fin 4) (h : Fin 12) (n : Fin 8192) :
    val_main_v10 (F := Ideal) x (ix4 b h n (0 : Fin 1)) = CosAttn.den (arr4 x) b h n := by
  rw [val_main_v10_apply, val_main_v8_apply, val_main_call1_v2_apply, val_main_call1_v1_apply, val_main_v9_apply,
    val_main_cst_1_apply, val_main_call1_cst_apply]
  simp only [idx_call1_v2_ix, idx_call1_v1_ix, val_main_call1_v0_apply, Ideal.maximumf_def, Ideal.hostUnary_sqrt_def,
    Ideal.mulf_def, Ideal.ofBits_def, Ideal.ofBits_zero_f32, zero_add]
  rfl

/-- The normalised, scaled query. -/
theorem qf_read (x0 : (⟨S4x12x8192x64, .f32⟩ : BufTy).Contents (Elt Ideal)) (b : Fin 4) (h : Fin 12) (n : Fin 8192) (d : Fin 64) :
    val_main_v7 (F := Ideal) x0 (ix4 b h n d) = CosAttn.qf (arr4 x0) b h n d := by
  rw [val_main_v7_apply, val_main_v5_apply, val_main_v4_apply, val_main_v6_apply, val_main_cst_0_apply, idx4_ix, den0_read]
  simp only [Ideal.mulf_def, Ideal.hostDivf_def, Ideal.ofBits_def]
  rfl

/-- The normalised, masked, scaled key. -/
theorem kf_read (x1 : (⟨S4x12x8192x64, .f32⟩ : BufTy).Contents (Elt Ideal)) (x3 : (⟨S4x8192, .f32⟩ : BufTy).Contents (Elt Ideal))
    (b : Fin 4) (h : Fin 12) (n : Fin 8192) (d : Fin 64) :
    val_main_v16 (F := Ideal) x1 x3 (ix4 b h n d) = CosAttn.kf (arr4 x1) (arr2 x3) b h n d := by
  rw [val_main_v16_apply, val_main_v14_apply, val_main_v12_apply, val_main_v11_apply, val_main_v13_apply, val_main_v0_apply,
    val_main_v15_apply, val_main_cst_2_apply, idx11_ix, den1_read, idx13_ix]
  simp only [Ideal.mulf_def, Ideal.hostDivf_def, Ideal.ofBits_def]
  rfl

/-- The masked value. -/
theorem vm_read (x2 : (⟨S4x12x8192x64, .f32⟩ : BufTy).Contents (Elt Ideal)) (x3 : (⟨S4x8192, .f32⟩ : BufTy).Contents (Elt Ideal))
    (b : Fin 4) (h : Fin 12) (n : Fin 8192) (e : Fin 64) :
    val_main_v18 (F := Ideal) x2 x3 (ix4 b h n e) = CosAttn.vm (arr4 x2) (arr2 x3) b h n e := by
  rw [val_main_v18_apply, val_main_v17_apply, val_main_v0_apply, idx17_ix]
  simp only [Ideal.mulf_def]
  rfl

/-- The first contraction: over all 8192 rows, key times value. -/
theorem ktv_read (x1 x2 : (⟨S4x12x8192x64, .f32⟩ : BufTy).Contents (Elt Ideal)) (x3 : (⟨S4x8192, .f32⟩ : BufTy).Contents (Elt Ideal))
    (b : Fin 4) (h : Fin 12) (d e : Fin 64) :
    val_main_v19 (F := Ideal) x1 x2 x3 (ix4 b h d e) = CosAttn.ktv (arr4 x1) (arr4 x2) (arr2 x3) b h d e := by
  rw [val_main_v19_apply]
  unfold CosAttn.ktv
  refine Finset.sum_congr rfl fun k _ => ?_
  rw [lidx19_ix, ridx19_ix, kf_read, vm_read]

/-- The reference's result at an index is the specification's. -/
theorem ref_is_spec (x0 x1 x2 : (⟨S4x12x8192x64, .f32⟩ : BufTy).Contents (Elt Ideal)) (x3 : (⟨S4x8192, .f32⟩ : BufTy).Contents (Elt Ideal))
    (b : Fin 4) (h : Fin 12) (n : Fin 8192) (e : Fin 64) :
    (refTerm (F := Ideal) x0 x1 x2 x3 : S4x12x8192x64.Idx → EReal) (ix4 b h n e)
      = CosAttn.out (arr4 x0) (arr4 x1) (arr4 x2) (arr2 x3) b h n e := by
  show val_main_v20 (F := Ideal) x0 x1 x2 x3 (ix4 b h n e) = _
  rw [val_main_v20_apply]
  unfold CosAttn.out
  refine Finset.sum_congr rfl fun k _ => ?_
  rw [lidx20_ix, ridx20_ix, qf_read, ktv_read]

end Cert.ReferenceIdeal.RefSpec

end
-- ==== Proof.Bridge.lean ====
/-
  The two programs meet at the specification. On the kernel's side: the result buffer ends at what the second
  call's write-backs leave; that is Σ_d qf(Q)[b,h,n,d] · M[b,h,d,e] with M the first call's result, which is
  the specification's Kᵀ·V of K, V and the widened mask; and what each call was entered with is the launch
  memory — no item writes an argument, and the widened mask at (b, n, 0) is the mask at (b, n). On the
  reference's side: its run ends at one composed term of the arguments, which read at an index is the
  specification's result. Both are `CosAttn.out` of the same four arrays.
-/
import proofs.«153352_j10582799417399_1_alg».proof.Proof.TwoRegionsVal
import proofs.«153352_j10582799417399_1_alg».proof.Proof.KtvValue
import proofs.«153352_j10582799417399_1_alg».proof.Proof.OutValue
import proofs.«153352_j10582799417399_1_alg».proof.Proof.RefIsSpec
import Idealize.ShloMosaic.Lib.StableHlo.Run
import Idealize.ShloMosaic.Lib.Pipeline.Value
import Idealize.ShloMosaic.Lib.ValueIdx

set_option maxRecDepth 16384

noncomputable section

namespace Cert.KernelIdeal.Bridge

open Cert.KernelIdeal Cert.KernelIdeal.Gen Cert.KernelIdeal.Run Cert.KernelIdeal.Ktv Cert.KernelIdeal.Out
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ)

/-- A [4, 12, 8192, 64] array and a [4, 8192] array by coordinates. -/
def A4 (x : S4x12x8192x64.Idx → EReal) : Fin 4 → Fin 12 → Fin 8192 → Fin 64 → EReal := fun b h n d => x (ix4 b h n d)
def A2 (x : S4x8192.Idx → EReal) : Fin 4 → Fin 8192 → EReal := fun b n => x (ix2 b n)

/-! ## What each call is entered with is the launch memory -/

theorem E1_arg1 (c : Dev nD) : E1 m c main_arg1 = m ((c : Thread nD τ).loc main_arg1) := V1_of m c main_arg1 (by decide)
theorem E1_arg2 (c : Dev nD) : E1 m c main_arg2 = m ((c : Thread nD τ).loc main_arg2) := V1_of m c main_arg2 (by decide)
theorem E2_arg0 (c : Dev nD) : E2 m c main_arg0 = m ((c : Thread nD τ).loc main_arg0) := by
  show W2 m c main_arg0 = _
  unfold W2
  rw [Function.update_of_ne (StableHlo.devRef_ne_of_ne (by decide))]
  exact V1_of m c main_arg0 (by decide)
theorem E2_v1 (c : Dev nD) : E2 m c main_v1 = (dat0 (F := Ideal) (E1 m) c).arrAt 3 cfg0.N := by
  show W2 m c main_v1 = _
  unfold W2; rw [Function.update_self]

/-- The host line: the mask widened to [4, 8192, 1]. -/
theorem E1_v0 (c : Dev nD) : (E1 m c main_v0 : S4x8192x1.Idx → EReal)
    = broadcastInDim S4x8192x1 ![0, 1] bcast_S4x8192_S4x8192x1_0_1 (m ((c : Thread nD τ).loc main_arg3)) := by
  show StableHlo.after hostOps0 (fun b => m (c, b)) (Proc.devRef .tc main_v0) = _
  after_results

/-- The widened mask at (b, n, 0) is the mask at (b, n). -/
theorem mask_apply (x3 : S4x8192.Idx → EReal) (b : Fin 4) (n : Fin 8192) :
    (broadcastInDim S4x8192x1 ![0, 1] bcast_S4x8192_S4x8192x1_0_1 x3 : S4x8192x1.Idx → EReal) (ix3 b n 0) = x3 (ix2 b n) :=
  broadcastInDim_apply _ bcast_S4x8192_S4x8192x1_0_1 x3 (ix3 b n 0) (ix2 b n) (fun a => match a with
    | ⟨0, _⟩ => by show b.val = if (4 : Nat) = 1 then 0 else b.val; rw [if_neg (by decide)]
    | ⟨1, _⟩ => by show n.val = if (8192 : Nat) = 1 then 0 else n.val; rw [if_neg (by decide)])

theorem Qarr_eq (c : Dev nD) : OutValue.Qarr (E2 m) c = A4 (m ((c : Thread nD τ).loc main_arg0)) := by
  unfold OutValue.Qarr A4; rw [E2_arg0]
theorem Karr_eq (c : Dev nD) : KtvValue.Karr (E1 m) c = A4 (m ((c : Thread nD τ).loc main_arg1)) := by
  unfold KtvValue.Karr A4; rw [E1_arg1]
theorem Varr_eq (c : Dev nD) : KtvValue.Varr (E1 m) c = A4 (m ((c : Thread nD τ).loc main_arg2)) := by
  unfold KtvValue.Varr A4; rw [E1_arg2]
theorem Marr_eq (c : Dev nD) : KtvValue.Marr (E1 m) c = A2 (m ((c : Thread nD τ).loc main_arg3)) := by
  unfold KtvValue.Marr A2; funext b n; rw [E1_v0]; exact mask_apply _ b n
/-- The matrix the second call is entered with is the first call's result: the specification's Kᵀ·V of the
    launch arrays. -/
theorem Mxarr_spec (c : Dev nD) (b : Fin 4) (h : Fin 12) (d e : Fin 64) :
    OutValue.Mxarr (E2 m) c b h d e
      = CosAttn.ktv (A4 (m ((c : Thread nD τ).loc main_arg1))) (A4 (m ((c : Thread nD τ).loc main_arg2)))
          (A2 (m ((c : Thread nD τ).loc main_arg3))) b h d e := by
  have h1 : OutValue.Mxarr (E2 m) c b h d e
      = ((dat0 (F := Ideal) (E1 m) c).arrAt 3 cfg0.N : S4x12x64x64.Idx → EReal) (ix4 b h d e) := by
    unfold OutValue.Mxarr; rw [E2_v1]
  refine h1.trans ((KtvValue.ktv_final (E1 m) c b h d e).trans ?_)
  rw [Karr_eq, Varr_eq, Marr_eq]

/-- The second call's sum, over the extended reals, is the specification's result. -/
theorem spec_sum (c : Dev nD) (b : Fin 4) (h : Fin 12) (n : Fin 8192) (e : Fin 64) :
    (∑ d : Fin 64, CosAttn.qf (OutValue.Qarr (E2 m) c) b h n d * OutValue.Mxarr (E2 m) c b h d e : EReal)
      = CosAttn.out (A4 (m ((c : Thread nD τ).loc main_arg0))) (A4 (m ((c : Thread nD τ).loc main_arg1)))
          (A4 (m ((c : Thread nD τ).loc main_arg2))) (A2 (m ((c : Thread nD τ).loc main_arg3))) b h n e := by
  unfold CosAttn.out
  refine Finset.sum_congr rfl fun d _ => ?_
  rw [Qarr_eq, Mxarr_spec]

/-- THE KERNEL'S VALUE: the result buffer's final contents, at an index, are the specification's result of the
    launch arrays. -/
theorem kernel_value (c : Dev nD) (b : Fin 4) (h : Fin 12) (n : Fin 8192) (e : Fin 64) :
    ((dat1 (F := Ideal) (E2 m) c).arrAt 2 cfg1.N : S4x12x8192x64.Idx → EReal) (ix4 b h n e)
      = CosAttn.out (A4 (m ((c : Thread nD τ).loc main_arg0))) (A4 (m ((c : Thread nD τ).loc main_arg1)))
          (A4 (m ((c : Thread nD τ).loc main_arg2))) (A2 (m ((c : Thread nD τ).loc main_arg3))) b h n e := by
  rw [OutValue.out_final (E2 m) c b h n e]
  exact spec_sum m c b h n e

/-- The array both programs end at, on core `c`. -/
def result (c : Dev nD) : S4x12x8192x64.Idx → EReal := fun i =>
  CosAttn.out (A4 (m ((c : Thread nD τ).loc main_arg0))) (A4 (m ((c : Thread nD τ).loc main_arg1)))
    (A4 (m ((c : Thread nD τ).loc main_arg2))) (A2 (m ((c : Thread nD τ).loc main_arg3))) (i 0) (i 1) (i 2) (i 3)

theorem kernel_result (c : Dev nD) : ((dat1 (F := Ideal) (E2 m) c).arrAt 2 cfg1.N : S4x12x8192x64.Idx → EReal) = result m c := by
  funext i
  obtain ⟨b, h, n, e, rfl⟩ : ∃ (b : Fin 4) (h : Fin 12) (n : Fin 8192) (e : Fin 64), i = ix4 b h n e := ⟨i 0, i 1, i 2, i 3, eq_ix4 i⟩
  exact kernel_value m c b h n e

/-- The reference's composed term of the same four arrays is the same array. -/
theorem reference_result (c : Dev nD) :
    (Cert.ReferenceIdeal.RefSpec.refTerm (F := Ideal) (m ((c : Thread nD τ).loc main_arg0)) (m ((c : Thread nD τ).loc main_arg1))
      (m ((c : Thread nD τ).loc main_arg2)) (m ((c : Thread nD τ).loc main_arg3)) : S4x12x8192x64.Idx → EReal) = result m c := by
  funext i
  obtain ⟨b, h, n, e, rfl⟩ : ∃ (b : Fin 4) (h : Fin 12) (n : Fin 8192) (e : Fin 64), i = ix4 b h n e := ⟨i 0, i 1, i 2, i 3, eq_ix4 i⟩
  exact Cert.ReferenceIdeal.RefSpec.ref_is_spec _ _ _ _ b h n e

end Cert.KernelIdeal.Bridge

end
-- ==== Proof.lean ====
/-
  Cosine-normalised linear attention, a two-call kernel against a plain reference, over the extended reals.

  Both programs compute, for Q, K, V of shape [4, 12, 8192, 64] and a mask of shape [4, 8192],
      out[b,h,n,e] = Σ_d qf[b,h,n,d] · (Σ_n' kf[b,h,n',d] · vm[b,h,n',e]),
  with qf = Q / max(‖Q‖, ε) · s, kf = K / max(‖K‖, ε) · mask · s, vm = V · mask, the norm taken along the last
  axis. The kernel's first call builds the inner 64×64 sum per (batch, head) in an accumulator over the two
  halves of the sequence axis — zero, plus the first 4096 rows' share, plus the last 4096 rows' — and its
  second call multiplies the normalised Q by it; the reference does both contractions whole. The two agree
  because a sum over 8192 rows is the sum over its halves: addition of extended reals is commutative and
  associative, so the inputs' finiteness is never used. The two constants ε and s are the same float words in
  both programs and are never evaluated; changes of float format are the identity at this instance.

  The frames: each kernel program is one host line and two calls; each call's body runs at every grid point
  from the blocks the pipeline stages, the first call's accumulator carried from point to point by its
  invariant. The reference's frame is its run with the result dropped. The idealization rewrote no operation.
-/
import proofs.«153352_j10582799417399_1_alg».proof.Defs
import proofs.«153352_j10582799417399_1_alg».proof.Proof.Gen.Kernel
import proofs.«153352_j10582799417399_1_alg».proof.Proof.Gen.KernelIdeal
import proofs.«153352_j10582799417399_1_alg».proof.Proof.Gen.ReferenceIdeal
import proofs.«153352_j10582799417399_1_alg».proof.Proof.Gen.Pre_finite_inputs
import proofs.«153352_j10582799417399_1_alg».proof.Proof.TwoRegionsBits
import proofs.«153352_j10582799417399_1_alg».proof.Proof.Bridge
import Idealize.ShloMosaic.Adequacy
import Idealize.ShloMosaic.Init

noncomputable section

namespace Cert.Proof

open Idealize.ShloMosaic Idealize.SL.Sem

/-- The word-level kernel runs to the end, faults nowhere and leaves its arguments as launched. -/
theorem frame_kernel : Cert.frame_Kernel := fun m ρ _ => Cert.Kernel.Run.frame (F := Bits) m ρ

/-- So does the idealized kernel. -/
theorem frame_kernelIdeal : Cert.frame_KernelIdeal := fun m ρ _ => Cert.KernelIdeal.Run.frame (F := Ideal) m ρ

/-- The reference has no call: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the specification's result of
    those arguments in their result buffers, the arguments unchanged. -/
theorem algebraic : Cert.algebraic_KernelIdeal_ReferenceIdeal := by
  intro m ρ m' ρ' _ hagree
  refine ⟨fun c => Cert.KernelIdeal.Bridge.result m c, ?_, ?_⟩
  · exact (θ_run Cert.KernelIdeal.defs _ _).mono
      (fun r h c => ⟨(h c).1.trans (Cert.KernelIdeal.Bridge.kernel_result m c), (h c).2⟩)
      (Cert.KernelIdeal.Run.run_val (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact Cert.KernelIdeal.Bridge.reference_result m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
